-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S128x4096 : Shape := ⟨2, ![128, 4096]⟩
abbrev S4096x128 : Shape := ⟨2, ![4096, 128]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S128x4096 : S_.BroadcastsInDim S128x4096 (![] : Fin 0 → Fin S128x4096.rank)
  reducesTo_S128x4096_S_d0_1 : S128x4096.ReducesTo [0, 1] S_
  bcast_S_S4096x128 : S_.BroadcastsInDim S4096x128 (![] : Fin 0 → Fin S4096x128.rank)
  reducesTo_S4096x128_S_d0_1 : S4096x128.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S4096x4096 .f32) (main_arg1 : FVec F S128x4096 .f32) (main_arg2 : FVec F S4096x128 .f32) (main_arg3 : FVec F S4096x4096 .f32) (main_arg4 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S128x4096 .f32 := Host.absf main_arg1
  let main_cst_0 : FVec F S_ .f32 := constant S_ .f32 0x7F800000#32
  let main_v5 : FVec F S128x4096 .f32 := broadcastInDim S128x4096 ![] bcast_S_S128x4096 main_cst_0
  let main_v6 : IVec S128x4096 1 := cmpf .olt main_v4 main_v5
  let main_c_1 : IVec S_ 1 := constantI S_ 1 1#1
  let main_v7 : IVec S_ 1 := (fun x v => Host.reduce IntOp.andi x v reducesTo_S128x4096_S_d0_1 h_S_) main_v6 main_c_1
  let main_v8 : IVec S_ 1 := andi main_v3 main_v7
  let main_v9 : FVec F S4096x128 .f32 := Host.absf main_arg2
  let main_cst_2 : FVec F S_ .f32 := constant S_ .f32 0x7F800000#32
  let main_v10 : FVec F S4096x128 .f32 := broadcastInDim S4096x128 ![] bcast_S_S4096x128 main_cst_2
  let main_v11 : IVec S4096x128 1 := cmpf .olt main_v9 main_v10
  let main_c_3 : IVec S_ 1 := constantI S_ 1 1#1
  let main_v12 : IVec S_ 1 := (fun x v => Host.reduce IntOp.andi x v reducesTo_S4096x128_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_v13 main_v16
-- ==== Kernel.lean ====
abbrev S4096x4096 : Shape := ⟨2, ![4096, 4096]⟩
abbrev S128x4096 : Shape := ⟨2, ![128, 4096]⟩
abbrev S4096x128 : Shape := ⟨2, ![4096, 128]⟩
abbrev S4096 : Shape := ⟨1, ![4096]⟩
abbrev S1x4096 : Shape := ⟨2, ![1, 4096]⟩
abbrev S1024x4096 : Shape := ⟨2, ![1024, 4096]⟩
abbrev S512x4096 : Shape := ⟨2, ![512, 4096]⟩
abbrev S512x128 : Shape := ⟨2, ![512, 128]⟩
abbrev S1x512 : Shape := ⟨2, ![1, 512]⟩
abbrev S1024x512 : Shape := ⟨2, ![1024, 512]⟩
abbrev S1024x128 : Shape := ⟨2, ![1024, 128]⟩

abbrev nBuf : Space → Nat
  | .hbm => 10
  | .vmem => 13
  | .smem => 0
  | _ => 0

abbrev bufTy : (tb : Table) → Fin (tcTables nBuf tb) → BufTy
  | .hbm, ⟨0, _⟩ => ⟨S4096x4096, .f32⟩
  | .hbm, ⟨1, _⟩ => ⟨S128x4096, .f32⟩
  | .hbm, ⟨2, _⟩ => ⟨S4096x128, .f32⟩
  | .hbm, ⟨3, _⟩ => ⟨S4096x4096, .f32⟩
  | .hbm, ⟨4, _⟩ => ⟨S4096, .f32⟩
  | .hbm, ⟨5, _⟩ => ⟨S128x4096, .bf16⟩
  | .hbm, ⟨6, _⟩ => ⟨S4096x4096, .bf16⟩
  | .hbm, ⟨7, _⟩ => ⟨S4096x128, .bf16⟩
  | .hbm, ⟨8, _⟩ => ⟨S1x4096, .f32⟩
  | .hbm, ⟨9, _⟩ => ⟨S4096x4096, .f32⟩
  | .local _ .vmem, ⟨0, _⟩ => ⟨S1024x4096, .f32⟩
  | .local _ .vmem, ⟨1, _⟩ => ⟨S1024x4096, .f32⟩
  | .local _ .vmem, ⟨2, _⟩ => ⟨S128x4096, .bf16⟩
  | .local _ .vmem, ⟨3, _⟩ => ⟨S512x4096, .bf16⟩
  | .local _ .vmem, ⟨4, _⟩ => ⟨S512x4096, .bf16⟩
  | .local _ .vmem, ⟨5, _⟩ => ⟨S512x128, .bf16⟩
  | .local _ .vmem, ⟨6, _⟩ => ⟨S512x128, .bf16⟩
  | .local _ .vmem, ⟨7, _⟩ => ⟨S1x512, .f32⟩
  | .local _ .vmem, ⟨8, _⟩ => ⟨S1x512, .f32⟩
  | .local _ .vmem, ⟨9, _⟩ => ⟨S1024x512, .f32⟩
  | .local _ .vmem, ⟨10, _⟩ => ⟨S1024x512, .f32⟩
  | .local _ .vmem, ⟨11, _⟩ => ⟨S1024x4096, .bf16⟩
  | .local _ .vmem, ⟨12, _⟩ => ⟨S1024x128, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S128x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bitsLt_bf16_f32 : FTy.bits .bf16 < FTy.bits .f32
  shapeCasts_S4096_S1x4096 : S4096.ShapeCasts S1x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  packedbf16_S1024x4096_S1024x4096_0_0 : (Rect.unit (s := S1024x4096) ![0, 0] S1024x4096.size inb_S1024x4096_S1024x4096_0_0).PackedRows (EltTy.packing .bf16)
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  packedbf16_S1024x128_S1024x128_0_0 : (Rect.unit (s := S1024x128) ![0, 0] S1024x128.size inb_S1024x128_S1024x128_0_0).PackedRows (EltTy.packing .bf16)
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  dot_S1024x4096_S128x4096_S1024x128_1_1_0_0_n_n_wf : DotDims.WF S1024x4096 S128x4096 S1024x128 [1] [1] [0] [0] [] []
  dot_S1024x4096_S512x4096_S1024x512_1_1_0_0_n_n_wf : DotDims.WF S1024x4096 S512x4096 S1024x512 [1] [1] [0] [0] [] []
  dot_S1024x128_S512x128_S1024x512_1_1_0_0_n_n_wf : DotDims.WF S1024x128 S512x128 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S4096x4096.size a
  hwx0_0 : ∀ i : grid0.Coords, EltTy.bits .f32 = 32 ∨ (Rect.block (s := S4096x4096) S1024x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S128x4096.size a
  hwx0_1 : ∀ i : grid0.Coords, EltTy.bits .bf16 = 32 ∨ (Rect.block (s := S128x4096) S128x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S4096x4096.size a
  hwx0_2 : ∀ i : grid0.Coords, EltTy.bits .bf16 = 32 ∨ (Rect.block (s := S4096x4096) S512x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S4096x128.size a
  hwx0_3 : ∀ i : grid0.Coords, EltTy.bits .bf16 = 32 ∨ (Rect.block (s := S4096x128) S512x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x4096.size a
  hwx0_4 : ∀ i : grid0.Coords, EltTy.bits .f32 = 32 ∨ (Rect.block (s := S1x4096) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S4096x4096.size a
  hwx0_5 : ∀ i : grid0.Coords, EltTy.bits .f32 = 32 ∨ (Rect.block (s := S4096x4096) S1024x512.size (cc0_transform_5 i) (hinb0_5 i)).WholeWords (EltTy.packing .f32)

variable [Facts₀]

def dot_S1024x4096_S128x4096_S1024x128_1_1_0_0_n_n : DotDims S1024x4096 S128x4096 S1024x128 where
  lhsContracting := [1]
  rhsContracting := [1]
  lhsNonContracting := [0]
  rhsNonContracting := [0]
  lhsBatch := []
  rhsBatch := []
  wf := dot_S1024x4096_S128x4096_S1024x128_1_1_0_0_n_n_wf
def dot_S1024x4096_S512x4096_S1024x512_1_1_0_0_n_n : DotDims S1024x4096 S512x4096 S1024x512 where
  lhsContracting := [1]
  rhsContracting := [1]
  lhsNonContracting := [0]
  rhsNonContracting := [0]
  lhsBatch := []
  rhsBatch := []
  wf := dot_S1024x4096_S512x4096_S1024x512_1_1_0_0_n_n_wf
def dot_S1024x128_S512x128_S1024x512_1_1_0_0_n_n : DotDims S1024x128 S512x128 S1024x512 where
  lhsContracting := [1]
  rhsContracting := [1]
  lhsNonContracting := [0]
  rhsNonContracting := [0]
  lhsBatch := []
  rhsBatch := []
  wf := dot_S1024x128_S512x128_S1024x512_1_1_0_0_n_n_wf

abbrev win0_0 : Pipeline.Window sig grid0 :=
  Pipeline.Window.ofSpec (Memref.whole main_arg0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1024x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S128x4096 : Shape := ⟨2, ![128, 4096]⟩
abbrev S4096x128 : Shape := ⟨2, ![4096, 128]⟩
abbrev S4096 : Shape := ⟨1, ![4096]⟩
abbrev S1x4096 : Shape := ⟨2, ![1, 4096]⟩
abbrev S512x512 : Shape := ⟨2, ![512, 512]⟩
abbrev S512x128 : Shape := ⟨2, ![512, 128]⟩
abbrev S1x512 : Shape := ⟨2, ![1, 512]⟩

abbrev nBuf : Space → Nat
  | .hbm => 8
  | .vmem => 13
  | .smem => 0
  | _ => 0

abbrev bufTy : (tb : Table) → Fin (tcTables nBuf tb) → BufTy
  | .hbm, ⟨0, _⟩ => ⟨S4096x4096, .f32⟩
  | .hbm, ⟨1, _⟩ => ⟨S128x4096, .f32⟩
  | .hbm, ⟨2, _⟩ => ⟨S4096x128, .f32⟩
  | .hbm, ⟨3, _⟩ => ⟨S4096x4096, .f32⟩
  | .hbm, ⟨4, _⟩ => ⟨S4096, .f32⟩
  | .hbm, ⟨5, _⟩ => ⟨S4096x128, .f32⟩
  | .hbm, ⟨6, _⟩ => ⟨S1x4096, .f32⟩
  | .hbm, ⟨7, _⟩ => ⟨S4096x4096, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S1x512, .f32⟩
  | .local _ .vmem, ⟨9, _⟩ => ⟨S1x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 8, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S4096_S1x4096 : S4096.ShapeCasts S1x4096
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  dot_S4096x4096_S128x4096_S4096x128_1_1_0_0_n_n_wf : DotDims.WF S4096x4096 S128x4096 S4096x128 [1] [1] [0] [0] [] []
  dot_S512x128_S512x128_S512x512_1_1_0_0_n_n_wf : DotDims.WF S512x128 S512x128 S512x512 [1] [1] [0] [0] [] []
  dot_S512x512_S512x512_S512x512_1_1_0_0_n_n_wf : DotDims.WF S512x512 S512x512 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x4096.size a
  hwx0_0 : ∀ i : grid0.Coords, EltTy.bits .f32 = 32 ∨ (Rect.block (s := S4096x4096) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S4096x4096.size a
  hwx0_1 : ∀ i : grid0.Coords, EltTy.bits .f32 = 32 ∨ (Rect.block (s := S4096x4096) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S4096x128.size a
  hwx0_2 : ∀ i : grid0.Coords, EltTy.bits .f32 = 32 ∨ (Rect.block (s := S4096x128) S512x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S4096x128.size a
  hwx0_3 : ∀ i : grid0.Coords, EltTy.bits .f32 = 32 ∨ (Rect.block (s := S4096x128) S512x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x4096.size a
  hwx0_4 : ∀ i : grid0.Coords, EltTy.bits .f32 = 32 ∨ (Rect.block (s := S1x4096) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S4096x4096.size a
  hwx0_5 : ∀ i : grid0.Coords, EltTy.bits .f32 = 32 ∨ (Rect.block (s := S4096x4096) S512x512.size (cc0_transform_5 i) (hinb0_5 i)).WholeWords (EltTy.packing .f32)

variable [Facts₀]

def dot_S4096x4096_S128x4096_S4096x128_1_1_0_0_n_n : DotDims S4096x4096 S128x4096 S4096x128 where
  lhsContracting := [1]
  rhsContracting := [1]
  lhsNonContracting := [0]
  rhsNonContracting := [0]
  lhsBatch := []
  rhsBatch := []
  wf := dot_S4096x4096_S128x4096_S4096x128_1_1_0_0_n_n_wf
def dot_S512x128_S512x128_S512x512_1_1_0_0_n_n : DotDims S512x128 S512x128 S512x512 where
  lhsContracting := [1]
  rhsContracting := [1]
  lhsNonContracting := [0]
  rhsNonContracting := [0]
  lhsBatch := []
  rhsBatch := []
  wf := dot_S512x128_S512x128_S512x512_1_1_0_0_n_n_wf
def dot_S512x512_S512x512_S512x512_1_1_0_0_n_n : DotDims S512x512 S512x512 S512x512 where
  lhsContracting := [1]
  rhsContracting := [1]
  lhsNonContracting := [0]
  rhsNonContracting := [0]
  lhsBatch := []
  rhsBatch := []
  wf := dot_S512x512_S512x512_S512x512_1_1_0_0_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S512x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S512x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== Proof.Spec.lean ====
/-
  The mathematics of the certificate, free of any program: a dense layer with a low-rank correction,
  `y[r, c] = Σₖ x[r, k]·C[c, k] + Σ_ρ (Σₖ x[r, k]·A[ρ, k])·B[c, ρ] + bias[c]`, over the extended reals, written
  in the two groupings the two programs compute it in, and the law that joins them.

  One side contracts the whole inner axis of length 4096 in one sum and adds the low-rank term and the bias afterwards;
  the other starts from (low-rank term + bias) and adds the inner axis in eight consecutive stretches of 512.
  Addition of extended reals is commutative and associative (no finiteness is needed for that), and a sum over
  `Fin 4096` is the double sum over (stretch, position in the stretch): so the two groupings are one function.
-/
import Idealize.ShloMosaic.PureOps.Ideal
import Idealize.ShloMosaic.Lib.ValueIdx
import Mathlib.Algebra.BigOperators.Fin
import Mathlib.Algebra.BigOperators.Intervals

noncomputable section

open scoped BigOperators

namespace Cert.LowRankDense

open Idealize.ShloMosaic Idealize.ShloMosaic.ValueIdx

/-- Square arrays of side 4096: `x`, the dense weight `C` (stored out × in) and the result. -/
abbrev Sq : Shape := ⟨2, ![4096, 4096]⟩
/-- The down-projection `A` (rank × in). -/
abbrev SDown : Shape := ⟨2, ![128, 4096]⟩
/-- The up-projection `B` (out × rank). -/
abbrev SUp : Shape := ⟨2, ![4096, 128]⟩
/-- The bias. -/
abbrev SBias : Shape := ⟨1, ![4096]⟩

/-- Position `kk` of stretch `s` on the inner axis: `512·s + kk`. -/
def inner (s : Fin 8) (kk : Fin 512) : Fin 4096 := ⟨512 * s.val + kk.val, by have := s.isLt; have := kk.isLt; omega⟩

@[simp] theorem inner_val (s : Fin 8) (kk : Fin 512) : (inner s kk).val = 512 * s.val + kk.val := rfl

/-- The inner axis is eight stretches of 512. -/
def innerEquiv : Fin 8 × Fin 512 ≃ Fin 4096 where
  toFun p := inner p.1 p.2
  invFun k := (⟨k.val / 512, by have := k.isLt; omega⟩, ⟨k.val % 512, Nat.mod_lt _ (by decide)⟩)
  left_inv p := by
    obtain ⟨s, kk⟩ := p
    have hs := s.isLt; have hk := kk.isLt
    refine Prod.ext (Fin.ext ?_) (Fin.ext ?_)
    · show (512 * s.val + kk.val) / 512 = s.val; omega
    · show (512 * s.val + kk.val) % 512 = kk.val; omega
  right_inv k := by
    apply Fin.ext
    show 512 * (k.val / 512) + k.val % 512 = k.val
    omega

/-- A sum over the inner axis is the sum over the stretches of the sums inside each stretch (any commutative addition). -/
theorem sum_inner {β : Type*} [AddCommMonoid β] (f : Fin 4096 → β) :
    ∑ s : Fin 8, ∑ kk : Fin 512, f (inner s kk) = ∑ k : Fin 4096, f k := by
  rw [← Fintype.sum_prod_type']
  exact Fintype.sum_equiv innerEquiv _ _ fun _ => rfl

/-- The projected activations `xa[r, ρ] = Σₖ x[r, k]·A[ρ, k]`. -/
def proj (x : Sq.Idx → EReal) (A : SDown.Idx → EReal) : SUp.Idx → EReal :=
  fun i => ∑ k : Fin 4096, x (ix2 (i 0) k) * A (ix2 (i 1) k)

/-- The dense term `Σₖ x[r, k]·C[c, k]`, the inner axis contracted whole. -/
def dense (x C : Sq.Idx → EReal) (r c : Fin 4096) : EReal := ∑ k : Fin 4096, x (ix2 r k) * C (ix2 c k)

/-- One stretch of the dense term: `Σ_{kk<512} x[r, 512 s + kk]·C[c, 512 s + kk]`. -/
def denseStretch (x C : Sq.Idx → EReal) (r c : Fin 4096) (s : Fin 8) : EReal :=
  ∑ kk : Fin 512, x (ix2 r (inner s kk)) * C (ix2 c (inner s kk))

/-- The low-rank term `Σ_ρ xa[r, ρ]·B[c, ρ]` of given projected activations. -/
def lowRank (xa : SUp.Idx → EReal) (B : SUp.Idx → EReal) (r c : Fin 4096) : EReal :=
  ∑ ρ : Fin 128, xa (ix2 r ρ) * B (ix2 c ρ)

/-- The result at row `r`, column `c`, grouped as (dense + low-rank) + bias, the inner axis contracted whole. -/
def wholeAt (x : Sq.Idx → EReal) (A : SDown.Idx → EReal) (B : SUp.Idx → EReal) (C : Sq.Idx → EReal) (b : SBias.Idx → EReal)
    (r c : Fin 4096) : EReal :=
  (dense x C r c + lowRank (proj x A) B r c) + b (ix1 c)

/-- The result at row `r`, column `c`, grouped as (low-rank + bias) + the eight stretches of the dense term. -/
def stretchAt (x : Sq.Idx → EReal) (A : SDown.Idx → EReal) (B : SUp.Idx → EReal) (C : Sq.Idx → EReal) (b : SBias.Idx → EReal)
    (r c : Fin 4096) : EReal :=
  (lowRank (proj x A) B r c + b (ix1 c)) + ∑ s : Fin 8, denseStretch x C r c s

/-- The whole result array in the first grouping. -/
def wholeForm (x : Sq.Idx → EReal) (A : SDown.Idx → EReal) (B : SUp.Idx → EReal) (C : Sq.Idx → EReal) (b : SBias.Idx → EReal) :
    Sq.Idx → EReal :=
  fun i => wholeAt x A B C b (i 0) (i 1)

/-- The whole result array in the second grouping. -/
def stretchForm (x : Sq.Idx → EReal) (A : SDown.Idx → EReal) (B : SUp.Idx → EReal) (C : Sq.Idx → EReal) (b : SBias.Idx → EReal) :
    Sq.Idx → EReal :=
  fun i => stretchAt x A B C b (i 0) (i 1)

/-- The eight stretches make up the dense term. -/
theorem sum_denseStretch (x C : Sq.Idx → EReal) (r c : Fin 4096) :
    ∑ s : Fin 8, denseStretch x C r c s = dense x C r c :=
  sum_inner fun k => x (ix2 r k) * C (ix2 c k)

/-- THE LAW at an entry: (low-rank + bias) + dense = (dense + low-rank) + bias, by commutativity and associativity. -/
theorem stretchAt_eq_wholeAt (x : Sq.Idx → EReal) (A : SDown.Idx → EReal) (B : SUp.Idx → EReal) (C : Sq.Idx → EReal)
    (b : SBias.Idx → EReal) (r c : Fin 4096) : stretchAt x A B C b r c = wholeAt x A B C b r c := by
  unfold stretchAt wholeAt
  rw [sum_denseStretch, add_comm (lowRank _ _ _ _ + _) (dense _ _ _ _), add_assoc]

/-- THE LAW: the two groupings are one function of the arguments. -/
theorem stretchForm_eq_wholeForm (x : Sq.Idx → EReal) (A : SDown.Idx → EReal) (B : SUp.Idx → EReal) (C : Sq.Idx → EReal)
    (b : SBias.Idx → EReal) : stretchForm x A B C b = wholeForm x A B C b :=
  funext fun i => stretchAt_eq_wholeAt x A B C b (i 0) (i 1)

end Cert.LowRankDense

end
-- ==== Proof.KernelPieces.lean ====
/-
  What each control case of the fused body leaves behind, as pure functions of what it loaded.

  At the first column tile of a row tile (case A) the body stores the row tile of `x` (narrowed to the matmul's
  operand format) into the first scratch, reads it back, contracts it with the whole down-projection `A` and stores
  that product into the second scratch; then, at every column tile (cases A and B alike), it reads both scratch
  buffers back and stores `x_tile·C_tileᵀ + xa_tile·B_tileᵀ + bias_tile` into the output tile. At the other column
  tiles (case B) the scratch buffers are only read: they hold what the point before left.
-/
import proofs.«154618_g2000304429570272_pallasbulk_165_3_alg».proof.Proof.Gen.KernelIdeal.Frame
import Idealize.ShloMosaic.Lib.Pipeline.Value
import Idealize.ShloMosaic.Lib.Tactic

noncomputable section

namespace Cert.KernelIdeal.HandValue

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- Case A leaves the narrowed row tile of `x` in the first scratch. -/
theorem scratchX_A (c : Dev nD) (i : grid0.Coords) (a2 : Memref sig .tc .vmem S1024x4096 .f32) (h2 : a2.IsWhole) (a3 : Memref sig .tc .vmem S128x4096 .bf16) (h3 : a3.IsWhole) (a4 : Memref sig .tc .vmem S512x4096 .bf16) (h4 : a4.IsWhole) (a5 : Memref sig .tc .vmem S512x128 .bf16) (h5 : a5.IsWhole) (a6 : Memref sig .tc .vmem S1x512 .f32) (h6 : a6.IsWhole) (a7 : Memref sig .tc .vmem S1024x512 .f32) (h7 : a7.IsWhole) (a8 : Memref sig .tc .vmem S1024x4096 .bf16) (h8 : a8.IsWhole) (a9 : Memref sig .tc .vmem S1024x128 .bf16) (h9 : a9.IsWhole) (hc0 : cond0_0 i)
    (x0 : Vec F S1024x4096 .f32) (x1 : Vec F S128x4096 .bf16) (x2 : Vec F S512x4096 .bf16) (x3 : Vec F S512x128 .bf16) (x4 : Vec F S1x512 .f32) :
    sout0_A_0 c i a2 h2 a3 h3 a4 h4 a5 h5 a6 h6 a7 h7 a8 h8 a9 h9 hc0 x0 x1 x2 x3 x4 = k0_pay1 x0 := by
  unfold sout0_A_0
  rw [View.read_writes_eq_canon _ _ _ (scover0_A_0 c i a2 h2 a3 h3 a4 h4 a5 h5 a6 h6 a7 h7 a8 h8 a9 h9 hc0 x0 x1 x2 x3 x4)]
  unfold kernelRun0_A
  dsimp only
  sl_unfold_words
  rw [View.canon_unit_zero hz]
  simp only [View.readAt_eq_ld, h2.read_unread, h3.read_unread, h4.read_unread, h5.read_unread, h6.read_unread, h8.read_unread,
    h9.read_unread, View.ld_unit_zero (S := S1024x4096) hz, View.ld_unit_zero (S := S128x4096) hz,
    View.ld_unit_zero (S := S512x4096) hz, View.ld_unit_zero (S := S512x128) hz, View.ld_unit_zero (S := S1x512) hz,
    View.ld_unit_zero (S := S1024x128) hz, View.readCov_unit_zero (S := S1024x4096) _ hz,
    View.readCov_unit_zero (S := S1024x128) _ hz]

/-- Case A leaves the projected row tile `xa = x_tile·Aᵀ` (narrowed) in the second scratch. -/
theorem scratchXa_A (c : Dev nD) (i : grid0.Coords) (a2 : Memref sig .tc .vmem S1024x4096 .f32) (h2 : a2.IsWhole) (a3 : Memref sig .tc .vmem S128x4096 .bf16) (h3 : a3.IsWhole) (a4 : Memref sig .tc .vmem S512x4096 .bf16) (h4 : a4.IsWhole) (a5 : Memref sig .tc .vmem S512x128 .bf16) (h5 : a5.IsWhole) (a6 : Memref sig .tc .vmem S1x512 .f32) (h6 : a6.IsWhole) (a7 : Memref sig .tc .vmem S1024x512 .f32) (h7 : a7.IsWhole) (a8 : Memref sig .tc .vmem S1024x4096 .bf16) (h8 : a8.IsWhole) (a9 : Memref sig .tc .vmem S1024x128 .bf16) (h9 : a9.IsWhole) (hc0 : cond0_0 i)
    (x0 : Vec F S1024x4096 .f32) (x1 : Vec F S128x4096 .bf16) (x2 : Vec F S512x4096 .bf16) (x3 : Vec F S512x128 .bf16) (x4 : Vec F S1x512 .f32) :
    sout0_A_1 c i a2 h2 a3 h3 a4 h4 a5 h5 a6 h6 a7 h7 a8 h8 a9 h9 hc0 x0 x1 x2 x3 x4 = k0_pay2 (k0_pay1 x0) x1 := by
  unfold sout0_A_1
  rw [View.read_writes_eq_canon _ _ _ (scover0_A_1 c i a2 h2 a3 h3 a4 h4 a5 h5 a6 h6 a7 h7 a8 h8 a9 h9 hc0 x0 x1 x2 x3 x4)]
  unfold kernelRun0_A
  dsimp only
  sl_unfold_words
  rw [View.canon_unit_zero hz]
  simp only [View.readAt_eq_ld, h2.read_unread, h3.read_unread, h4.read_unread, h5.read_unread, h6.read_unread, h8.read_unread,
    h9.read_unread, View.ld_unit_zero (S := S1024x4096) hz, View.ld_unit_zero (S := S128x4096) hz,
    View.ld_unit_zero (S := S512x4096) hz, View.ld_unit_zero (S := S512x128) hz, View.ld_unit_zero (S := S1x512) hz,
    View.ld_unit_zero (S := S1024x128) hz, View.readCov_unit_zero (S := S1024x4096) _ hz,
    View.readCov_unit_zero (S := S1024x128) _ hz]

/-- Case A's output tile: the tile's arithmetic on the two scratch contents it has just written. -/
theorem tile_A (c : Dev nD) (i : grid0.Coords) (a2 : Memref sig .tc .vmem S1024x4096 .f32) (h2 : a2.IsWhole) (a3 : Memref sig .tc .vmem S128x4096 .bf16) (h3 : a3.IsWhole) (a4 : Memref sig .tc .vmem S512x4096 .bf16) (h4 : a4.IsWhole) (a5 : Memref sig .tc .vmem S512x128 .bf16) (h5 : a5.IsWhole) (a6 : Memref sig .tc .vmem S1x512 .f32) (h6 : a6.IsWhole) (a7 : Memref sig .tc .vmem S1024x512 .f32) (h7 : a7.IsWhole) (a8 : Memref sig .tc .vmem S1024x4096 .bf16) (h8 : a8.IsWhole) (a9 : Memref sig .tc .vmem S1024x128 .bf16) (h9 : a9.IsWhole) (hc0 : cond0_0 i)
    (x0 : Vec F S1024x4096 .f32) (x1 : Vec F S128x4096 .bf16) (x2 : Vec F S512x4096 .bf16) (x3 : Vec F S512x128 .bf16) (x4 : Vec F S1x512 .f32) :
    out0_A_5 c i a2 h2 a3 h3 a4 h4 a5 h5 a6 h6 a7 h7 a8 h8 a9 h9 hc0 x0 x1 x2 x3 x4 = k0_pay3 (k0_pay1 x0) x2 (k0_pay2 (k0_pay1 x0) x1) x3 x4 := by
  unfold out0_A_5
  rw [View.read_writes_eq_canon _ _ _ (cover0_A_5 c i a2 h2 a3 h3 a4 h4 a5 h5 a6 h6 a7 h7 a8 h8 a9 h9 hc0 x0 x1 x2 x3 x4)]
  unfold kernelRun0_A
  dsimp only
  sl_unfold_words
  rw [View.canon_unit_zero hz]
  simp only [View.readAt_eq_ld, h2.read_unread, h3.read_unread, h4.read_unread, h5.read_unread, h6.read_unread, h8.read_unread,
    h9.read_unread, View.ld_unit_zero (S := S1024x4096) hz, View.ld_unit_zero (S := S128x4096) hz,
    View.ld_unit_zero (S := S512x4096) hz, View.ld_unit_zero (S := S512x128) hz, View.ld_unit_zero (S := S1x512) hz,
    View.ld_unit_zero (S := S1024x128) hz, View.readCov_unit_zero (S := S1024x4096) _ hz,
    View.readCov_unit_zero (S := S1024x128) _ hz]

/-- Case B's output tile: the tile's arithmetic on what the scratch buffers held on entry. -/
theorem tile_B (c : Dev nD) (i : grid0.Coords) (a2 : Memref sig .tc .vmem S1024x4096 .f32) (h2 : a2.IsWhole) (a3 : Memref sig .tc .vmem S128x4096 .bf16) (h3 : a3.IsWhole) (a4 : Memref sig .tc .vmem S512x4096 .bf16) (h4 : a4.IsWhole) (a5 : Memref sig .tc .vmem S512x128 .bf16) (h5 : a5.IsWhole) (a6 : Memref sig .tc .vmem S1x512 .f32) (h6 : a6.IsWhole) (a7 : Memref sig .tc .vmem S1024x512 .f32) (h7 : a7.IsWhole) (a8 : Memref sig .tc .vmem S1024x4096 .bf16) (h8 : a8.IsWhole) (a9 : Memref sig .tc .vmem S1024x128 .bf16) (h9 : a9.IsWhole) (hc0 : ¬cond0_0 i)
    (x0 : Vec F S1024x4096 .f32) (x1 : Vec F S128x4096 .bf16) (x2 : Vec F S512x4096 .bf16) (x3 : Vec F S512x128 .bf16) (x4 : Vec F S1x512 .f32) (xs0 : Vec F S1024x4096 .bf16) (xs1 : Vec F S1024x128 .bf16) :
    out0_B_5 c i a2 h2 a3 h3 a4 h4 a5 h5 a6 h6 a7 h7 a8 h8 a9 h9 hc0 x0 x1 x2 x3 x4 xs0 xs1 = k0_pay3 xs0 x2 xs1 x3 x4 := by
  unfold out0_B_5
  rw [View.read_writes_eq_canon _ _ _ (cover0_B_5 c i a2 h2 a3 h3 a4 h4 a5 h5 a6 h6 a7 h7 a8 h8 a9 h9 hc0 x0 x1 x2 x3 x4 xs0 xs1)]
  unfold kernelRun0_B
  dsimp only
  sl_unfold_words
  rw [View.canon_unit_zero hz]
  simp only [View.readAt_eq_ld, h2.read_unread, h3.read_unread, h4.read_unread, h5.read_unread, h6.read_unread, h8.read_unread,
    h9.read_unread, View.ld_unit_zero (S := S1024x4096) hz, View.ld_unit_zero (S := S128x4096) hz,
    View.ld_unit_zero (S := S512x4096) hz, View.ld_unit_zero (S := S512x128) hz, View.ld_unit_zero (S := S1x512) hz,
    View.ld_unit_zero (S := S1024x128) hz, View.readCov_unit_zero (S := S1024x4096) _ hz,
    View.readCov_unit_zero (S := S1024x128) _ hz]

end Cert.KernelIdeal.HandValue

end
-- ==== Proof.LibMatmulNT.lean ====
/-
  A matrix product with the right operand transposed, read at one entry of the result, over the extended reals.

  For dimension numbers on shapes [M, K] × [N, K] → [M, N] that contract the second axis of both operands, keep the
  first axis of each and have no batch axis, the product accumulated into the zero matrix is, at row `p` and column
  `q`, the plain sum `Σₖ l[p, k]·r[q, k]`; the host's `dot_general` with the same dimension numbers is the same sum.
  Stated for ANY such record of dimension numbers (the hypotheses are its six lists), so that a printed program's own
  record is an instance by `rfl`.
-/
import Idealize.ShloMosaic.PureOps.Ideal.Laws
import Idealize.ShloMosaic.Lib.ValueIdx

noncomputable section

open scoped BigOperators

namespace Idealize.ShloMosaic.MatmulNT

open Idealize.ShloMosaic Idealize.ShloMosaic.ValueIdx

variable {M K N : Nat} (d : DotDims ⟨2, ![M, K]⟩ ⟨2, ![N, K]⟩ ⟨2, ![M, N]⟩)

/-- The left operand's row is the result's row. -/
theorem lhs_row (hb : d.lhsBatch = []) (hn : d.lhsNonContracting = [0]) (j : (⟨2, ![M, N]⟩ : Shape).Idx) (k : d.contr.Idx) :
    (d.lhsIdx j k 0).val = (j 0).val := by
  unfold DotDims.lhsIdx
  rw [dif_neg (by rw [hb]; exact List.not_mem_nil), dif_pos (by rw [hn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hb, hn])

/-- The right operand's row is the result's column. -/
theorem rhs_row (hb : d.lhsBatch = []) (hb' : d.rhsBatch = []) (hl : d.lhsNonContracting = [0]) (hn : d.rhsNonContracting = [0])
    (j : (⟨2, ![M, N]⟩ : Shape).Idx) (k : d.contr.Idx) :
    (d.rhsIdx j k 0).val = (j 1).val := by
  unfold DotDims.rhsIdx
  rw [dif_neg (by rw [hb']; exact List.not_mem_nil), dif_pos (by rw [hn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hb, hl, hn])

/-- The contraction has one axis, -/
theorem contr_rank (hc : d.lhsContracting = [1]) : d.contr.rank = 1 := by rw [d.rank_contr, hc]; rfl

/-- of extent `K`. -/
theorem contr_size (hc : d.lhsContracting = [1]) : d.contr.size ⟨0, by rw [contr_rank d hc]; exact Nat.one_pos⟩ = K := by
  have h := d.size_contr 0 (by rw [hc]; exact Nat.one_pos)
  have e : d.lhsContracting[0]'(by rw [hc]; exact Nat.one_pos) = 1 := by simp [hc]
  rw [e] at h
  exact h

/-- The sum over the contraction index is the sum over `Fin K`, the operands read at (row, k). -/
theorem sum_contr (hlc : d.lhsContracting = [1]) (hrc : d.rhsContracting = [1]) (hln : d.lhsNonContracting = [0])
    (hrn : d.rhsNonContracting = [0]) (hlb : d.lhsBatch = []) (hrb : d.rhsBatch = [])
    (l : (⟨2, ![M, K]⟩ : Shape).Idx → EReal) (r : (⟨2, ![N, K]⟩ : Shape).Idx → EReal) (p : Fin M) (q : Fin N) :
    ∑ k : d.contr.Idx, l (d.lhsIdx (ix2 p q) k) * r (d.rhsIdx (ix2 p q) k) = ∑ k : Fin K, l (ix2 p k) * r (ix2 q k) := by
  rw [← Equiv.sum_comp (contrEquiv1 d K (contr_rank d hlc) (contr_size d hlc)).symm]
  refine Finset.sum_congr rfl fun k _ => ?_
  have hk := contrEquiv1_symm_val d K (contr_rank d hlc) (contr_size d hlc) k
  have el : d.lhsIdx (ix2 p q) ((contrEquiv1 d K (contr_rank d hlc) (contr_size d hlc)).symm k) = ix2 p k := by
    funext a
    apply Fin.ext
    match a with
    | ⟨0, _⟩ => exact lhs_row d hlb hln _ _
    | ⟨1, _⟩ => exact (d.lhsIdx_val_of_single hlc _ _).trans hk
  have er : d.rhsIdx (ix2 p q) ((contrEquiv1 d K (contr_rank d hlc) (contr_size d hlc)).symm k) = ix2 q k := by
    funext a
    apply Fin.ext
    match a with
    | ⟨0, _⟩ => exact rhs_row d hlb hrb hln hrn _ _
    | ⟨1, _⟩ => exact (d.rhsIdx_val_of_single hrc _ _).trans hk
  rw [el, er]

/-- THE PRODUCT INTO THE ZERO MATRIX at an entry: `Σₖ l[p, k]·r[q, k]`. -/
theorem matmul_zero_apply {φ₁ φ₂ : FTy} (hlc : d.lhsContracting = [1]) (hrc : d.rhsContracting = [1]) (hln : d.lhsNonContracting = [0])
    (hrn : d.rhsNonContracting = [0]) (hlb : d.lhsBatch = []) (hrb : d.rhsBatch = []) (prec : Option ContractPrecision)
    (l : FVec Ideal ⟨2, ![M, K]⟩ φ₁) (r : FVec Ideal ⟨2, ![N, K]⟩ φ₂) (p : Fin M) (q : Fin N) :
    FloatOps.matmul d prec l r (constant ⟨2, ![M, N]⟩ .f32 0x00000000#32) (ix2 p q) = ∑ k : Fin K, l (ix2 p k) * r (ix2 q k) := by
  rw [Ideal.matmul_constant_zero_apply]
  exact sum_contr d hlc hrc hln hrn hlb hrb l r p q

/-- THE HOST'S PRODUCT at an entry: the same sum. -/
theorem dotGeneral_apply {φ₁ φ₂ : FTy} (hlc : d.lhsContracting = [1]) (hrc : d.rhsContracting = [1]) (hln : d.lhsNonContracting = [0])
    (hrn : d.rhsNonContracting = [0]) (hlb : d.lhsBatch = []) (hrb : d.rhsBatch = []) (prec : Option ContractPrecision) (sched : HostSchedule)
    (l : FVec Ideal ⟨2, ![M, K]⟩ φ₁) (r : FVec Ideal ⟨2, ![N, K]⟩ φ₂) (p : Fin M) (q : Fin N) :
    FloatOps.dotGeneral d prec sched l r (ix2 p q) = ∑ k : Fin K, l (ix2 p k) * r (ix2 q k) := by
  rw [Ideal.dotGeneral_apply]
  exact sum_contr d hlc hrc hln hrn hlb hrb l r p q

end Idealize.ShloMosaic.MatmulNT

end
-- ==== Proof.KernelPayload.lean ====
/-
  The fused body's three stored values, read at one entry over the extended reals.

  There a change of float format is the identity and a matrix product into the zero matrix is the plain sum of
  products, so: the narrowed copy of the row tile is the row tile; the projected tile is `xa[p, ρ] = Σₖ xs[p, k]·A[ρ, k]`;
  and the output tile is `(Σₖ xs[p, k]·C[q, k] + Σ_ρ xa[p, ρ]·B[q, ρ]) + bias[0, q]`.
-/
import proofs.«154618_g2000304429570272_pallasbulk_165_3_alg».proof.Proof.Gen.KernelIdeal.Skeleton
import proofs.«154618_g2000304429570272_pallasbulk_165_3_alg».proof.Proof.LibMatmulNT
import Idealize.ShloMosaic.Lib.Pipeline.Value
import Idealize.ShloMosaic.Lib.ValueIdx

noncomputable section

open scoped BigOperators

namespace Cert.KernelIdeal.HandValue

open Cert.KernelIdeal Cert.KernelIdeal.Gen Idealize.ShloMosaic Idealize.ShloMosaic.ValueIdx

/-- The narrowed copy of the row tile holds the row tile's values. -/
theorem pay1_apply (x0 : Vec Ideal S1024x4096 .f32) (y : S1024x4096.Idx) : k0_pay1 (F := Ideal) x0 y = x0 y := by
  unfold k0_pay1
  simp only [shapeCast_self]
  rfl

/-- The projected tile at (p, ρ): the row tile's row `p` against row `ρ` of the down-projection. -/
theorem pay2_apply (xs : Vec Ideal S1024x4096 .bf16) (a : Vec Ideal S128x4096 .bf16) (p : Fin 1024) (q : Fin 128) :
    k0_pay2 (F := Ideal) xs a (ix2 p q) = ∑ k : Fin 4096, xs (ix2 p k) * a (ix2 q k) := by
  unfold k0_pay2
  simp only [shapeCast_self]
  exact MatmulNT.matmul_zero_apply (φ₁ := .bf16) (φ₂ := .bf16) dot_S1024x4096_S128x4096_S1024x128_1_1_0_0_n_n rfl rfl rfl rfl rfl rfl none xs a p q

/-- The output tile at (p, q): dense term plus low-rank term plus the bias of column `q`. -/
theorem pay3_apply (xs : Vec Ideal S1024x4096 .bf16) (cb : Vec Ideal S512x4096 .bf16) (xa : Vec Ideal S1024x128 .bf16)
    (bb : Vec Ideal S512x128 .bf16) (bias : Vec Ideal S1x512 .f32) (p : Fin 1024) (q : Fin 512) :
    k0_pay3 (F := Ideal) xs cb xa bb bias (ix2 p q)
      = (∑ k : Fin 4096, xs (ix2 p k) * cb (ix2 q k) + ∑ r : Fin 128, xa (ix2 p r) * bb (ix2 q r)) + bias (ix2 0 q) := by
  unfold k0_pay3
  simp only [shapeCast_self]
  refine (addf_apply _ _ _).trans ?_
  refine congrArg₂ (· + ·) ((addf_apply _ _ _).trans (congrArg₂ (· + ·) ?_ ?_)) ?_
  · exact MatmulNT.matmul_zero_apply (φ₁ := .bf16) (φ₂ := .bf16) dot_S1024x4096_S512x4096_S1024x512_1_1_0_0_n_n rfl rfl rfl rfl rfl rfl none xs cb p q
  · exact MatmulNT.matmul_zero_apply (φ₁ := .bf16) (φ₂ := .bf16) dot_S1024x128_S512x128_S1024x512_1_1_0_0_n_n rfl rfl rfl rfl rfl rfl none xa bb p q
  · refine broadcastTo_apply bias broadcasts_S1x512_S1024x512 (ix2 p q) (ix2 0 q) fun a => ?_
    match a with
    | ⟨0, _⟩ => rfl
    | ⟨1, _⟩ => rfl

end Cert.KernelIdeal.HandValue

end
-- ==== Proof.KernelBlocks.lean ====
/-
  Where each window's block sits in its array, and what the arrays hold when the region starts.

  Grid point `t` of the 4 × 8 grid is row tile `t / 8`, column tile `t % 8`. The row tile of `x` starts at row
  `1024·(t / 8)`; the column tiles of the dense weight, of the up-projection and of the bias row start at
  `512·(t % 8)`; the down-projection is one block, the whole array. Before the region the three weights are
  narrowed to the matmul's operand format, which at the extended reals changes no value, and the bias is laid out as a
  one-row matrix.
-/
import proofs.«154618_g2000304429570272_pallasbulk_165_3_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.HandValue

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The arrays as the region finds them, each at its literal type. -/
abbrev xArr (c : Dev nD) : Vec Ideal S4096x4096 .f32 := V m c main_arg0
abbrev aArr (c : Dev nD) : Vec Ideal S128x4096 .bf16 := V m c main_v0
abbrev cArr (c : Dev nD) : Vec Ideal S4096x4096 .bf16 := V m c main_v1
abbrev bArr (c : Dev nD) : Vec Ideal S4096x128 .bf16 := V m c main_v2
abbrev biasArr (c : Dev nD) : Vec Ideal S1x4096 .f32 := V m c main_v3

/-- The arguments as launched, each at its literal type. -/
abbrev xArg (c : Dev nD) : Vec Ideal S4096x4096 .f32 := m ((c : Thread nD τ).loc main_arg0)
abbrev aArg (c : Dev nD) : Vec Ideal S128x4096 .f32 := m ((c : Thread nD τ).loc main_arg1)
abbrev bArg (c : Dev nD) : Vec Ideal S4096x128 .f32 := m ((c : Thread nD τ).loc main_arg2)
abbrev cArg (c : Dev nD) : Vec Ideal S4096x4096 .f32 := m ((c : Thread nD τ).loc main_arg3)
abbrev biasArg (c : Dev nD) : Vec Ideal S4096 .f32 := m ((c : Thread nD τ).loc main_arg4)

theorem lt32 (t : Fin cfg0.N) : t.val < 32 := lt_of_lt_of_eq t.isLt (show cfg0.N = 32 from N_0)

/-- Row `p` of the row tile at point `t`, as a row of the array. -/
def rowOf (t : Fin cfg0.N) (p : Fin 1024) : Fin 4096 := ⟨1024 * (t.val / 8) + p.val, by have := lt32 t; have := p.isLt; omega⟩
/-- Column `q` of the column tile at point `t`, as a column of the array. -/
def colOf (t : Fin cfg0.N) (q : Fin 512) : Fin 4096 := ⟨512 * (t.val % 8) + q.val, by have := q.isLt; omega⟩

/-- The block indices of the five input windows and of the output window at every grid point (decided over the 32 points). -/
theorem idx_facts : ∀ t : Fin cfg0.N,
    (win0_0.index t 0 = t.val / 8 ∧ win0_0.index t 1 = 0) ∧ (win0_1.index t 0 = 0 ∧ win0_1.index t 1 = 0)
    ∧ (win0_2.index t 0 = t.val % 8 ∧ win0_2.index t 1 = 0) ∧ (win0_3.index t 0 = t.val % 8 ∧ win0_3.index t 1 = 0)
    ∧ (win0_4.index t 0 = 0 ∧ win0_4.index t 1 = t.val % 8) ∧ (win0_5.index t 0 = t.val / 8 ∧ win0_5.index t 1 = t.val % 8) :=
  (by decide +kernel : ∀ t : Fin grid0.N, _)

/-- The row tile of `x` at point `t`. -/
theorem xblk_apply (c : Dev nD) (t : Fin cfg0.N) (p : Fin 1024) (k : Fin 4096) :
    (iblk m c 0 t : Vec Ideal S1024x4096 .f32) (ix2 p k) = xArr m c (ix2 (rowOf t p) k) := by
  unfold iblk
  rw [View.read_apply]
  show V m c main_arg0 _ = V m c main_arg0 _
  congr 1
  funext a
  apply Fin.ext
  match a with
  | ⟨0, _⟩ => show win0_0.index t 0 * 1024 + 1 * p.val = 1024 * (t.val / 8) + p.val; rw [(idx_facts t).1.1]; omega
  | ⟨1, _⟩ => show win0_0.index t 1 * 4096 + 1 * k.val = k.val; rw [(idx_facts t).1.2]; omega

/-- The down-projection's one block is the array. -/
theorem ablk_apply (c : Dev nD) (t : Fin cfg0.N) (r : Fin 128) (k : Fin 4096) :
    (iblk m c 1 t : Vec Ideal S128x4096 .bf16) (ix2 r k) = aArr m c (ix2 r k) := by
  unfold iblk
  rw [View.read_apply]
  show V m c main_v0 _ = V m c main_v0 _
  congr 1
  funext a
  apply Fin.ext
  match a with
  | ⟨0, _⟩ => show win0_1.index t 0 * 128 + 1 * r.val = r.val; rw [(idx_facts t).2.1.1]; omega
  | ⟨1, _⟩ => show win0_1.index t 1 * 4096 + 1 * k.val = k.val; rw [(idx_facts t).2.1.2]; omega

/-- The column tile of the dense weight at point `t` (its rows are the result's columns). -/
theorem cblk_apply (c : Dev nD) (t : Fin cfg0.N) (q : Fin 512) (k : Fin 4096) :
    (iblk m c 2 t : Vec Ideal S512x4096 .bf16) (ix2 q k) = cArr m c (ix2 (colOf t q) k) := by
  unfold iblk
  rw [View.read_apply]
  show V m c main_v1 _ = V m c main_v1 _
  congr 1
  funext a
  apply Fin.ext
  match a with
  | ⟨0, _⟩ => show win0_2.index t 0 * 512 + 1 * q.val = 512 * (t.val % 8) + q.val; rw [(idx_facts t).2.2.1.1]; omega
  | ⟨1, _⟩ => show win0_2.index t 1 * 4096 + 1 * k.val = k.val; rw [(idx_facts t).2.2.1.2]; omega

/-- The column tile of the up-projection at point `t`. -/
theorem bblk_apply (c : Dev nD) (t : Fin cfg0.N) (q : Fin 512) (r : Fin 128) :
    (iblk m c 3 t : Vec Ideal S512x128 .bf16) (ix2 q r) = bArr m c (ix2 (colOf t q) r) := by
  unfold iblk
  rw [View.read_apply]
  show V m c main_v2 _ = V m c main_v2 _
  congr 1
  funext a
  apply Fin.ext
  match a with
  | ⟨0, _⟩ => show win0_3.index t 0 * 512 + 1 * q.val = 512 * (t.val % 8) + q.val; rw [(idx_facts t).2.2.2.1.1]; omega
  | ⟨1, _⟩ => show win0_3.index t 1 * 128 + 1 * r.val = r.val; rw [(idx_facts t).2.2.2.1.2]; omega

/-- The column tile of the bias row at point `t`. -/
theorem biasblk_apply (c : Dev nD) (t : Fin cfg0.N) (q : Fin 512) :
    (iblk m c 4 t : Vec Ideal S1x512 .f32) (ix2 0 q) = biasArr m c (ix2 0 (colOf t q)) := by
  unfold iblk
  rw [View.read_apply]
  show V m c main_v3 _ = V m c main_v3 _
  congr 1
  funext a
  apply Fin.ext
  match a with
  | ⟨0, _⟩ => show win0_4.index t 0 * 1 + 1 * 0 = 0; rw [(idx_facts t).2.2.2.2.1.1]
  | ⟨1, _⟩ => show win0_4.index t 1 * 512 + 1 * q.val = 512 * (t.val % 8) + q.val; rw [(idx_facts t).2.2.2.2.1.2]; omega

/-- `x` reaches the region as launched. -/
theorem xArr_eq (c : Dev nD) : xArr m c = xArg m c := V_main_arg0 m c

/-- The narrowed down-projection holds the down-projection's values. -/
theorem aArr_apply (c : Dev nD) (i : S128x4096.Idx) : aArr m c i = aArg m c i := by
  have e : (V m c main_v0 : S128x4096.Idx → EReal) = truncf (F := Ideal) .bf16 (aArg m c) bitsLt_bf16_f32 := by
    dsimp only [Gen.V, Gen.hostOps0]; after_results
  exact congrFun e i

/-- The narrowed dense weight holds the dense weight's values. -/
theorem cArr_apply (c : Dev nD) (i : S4096x4096.Idx) : cArr m c i = cArg m c i := by
  have e : (V m c main_v1 : S4096x4096.Idx → EReal) = truncf (F := Ideal) .bf16 (cArg m c) bitsLt_bf16_f32 := by
    dsimp only [Gen.V, Gen.hostOps0]; after_results
  exact congrFun e i

/-- The narrowed up-projection holds the up-projection's values. -/
theorem bArr_apply (c : Dev nD) (i : S4096x128.Idx) : bArr m c i = bArg m c i := by
  have e : (V m c main_v2 : S4096x128.Idx → EReal) = truncf (F := Ideal) .bf16 (bArg m c) bitsLt_bf16_f32 := by
    dsimp only [Gen.V, Gen.hostOps0]; after_results
  exact congrFun e i

/-- The one-row bias at column `q` is the bias at `q`. -/
theorem biasArr_apply (c : Dev nD) (q : Fin 4096) : biasArr m c (ix2 0 q) = biasArg m c (ix1 q) := by
  have e : (V m c main_v3 : S1x4096.Idx → EReal) = shapeCast S1x4096 (biasArg m c) shapeCasts_S4096_S1x4096 := by
    dsimp only [Gen.V, Gen.hostOps0]; after_results; rfl
  refine (congrFun e _).trans ?_
  refine shapeCast_apply _ _ _ _ ?_
  rw [Shape.rowMajor_val_one, Shape.rowMajor_val_two]
  show q.val = (0 : Fin 1).val * 4096 + q.val
  simp

end Cert.KernelIdeal.HandValue

end
-- ==== Proof.KernelValue.lean ====
/-
  The kernel's result array, at the extended reals, is the dense layer with its low-rank correction.

  Invariant over the grid points, in their order (row tile `t / 8` outer, column tile `t % 8` inner): after point `t`
  the first scratch holds the row tile `t / 8` of `x` and the second holds that tile projected through `A` — set at
  the first column tile of each row tile, untouched at the other seven, during which the row tile does not change.
  Hence the tile stored at point `t` is, entry by entry, `(Σₖ x[r, k]·C[c, k] + Σ_ρ xa[r, ρ]·B[c, ρ]) + bias[c]` at row
  `r = 1024·(t / 8) + p`, column `c = 512·(t % 8) + q`: the block of ONE function of the arguments. Every point writes
  its tile back and the 32 tiles cover the array, so the array ends at that function.
-/
import proofs.«154618_g2000304429570272_pallasbulk_165_3_alg».proof.Defs
import proofs.«154618_g2000304429570272_pallasbulk_165_3_alg».proof.Proof.Gen.KernelIdeal.Value
import proofs.«154618_g2000304429570272_pallasbulk_165_3_alg».proof.Proof.Spec
import proofs.«154618_g2000304429570272_pallasbulk_165_3_alg».proof.Proof.KernelPieces
import proofs.«154618_g2000304429570272_pallasbulk_165_3_alg».proof.Proof.KernelPayload
import proofs.«154618_g2000304429570272_pallasbulk_165_3_alg».proof.Proof.KernelBlocks

noncomputable section

open scoped BigOperators

namespace Cert.KernelIdeal.HandValue

open Cert.KernelIdeal Cert.KernelIdeal.Gen Idealize.ShloMosaic Idealize.ShloMosaic.TcCoe Idealize.SL.Sem
open Idealize.ShloMosaic.ValueIdx
open Idealize.ShloMosaic.Pipeline (Dat)
open Cert.LowRankDense (proj lowRank dense wholeAt wholeForm)

variable (m : (ℓ : Loc nD τ sig) → Buf (Elt Ideal) ℓ) (ρ : Dev nD → PrngReg)

/-- The point before a point that is not a first column tile is in the same row tile. -/
theorem rowOf_pred (n : ℕ) (h : n + 1 < cfg0.N) (h0 : ¬(n + 1) % 8 = 0) (p : Fin 1024) :
    rowOf ⟨n, Nat.lt_of_succ_lt h⟩ p = rowOf ⟨n + 1, h⟩ p := by
  apply Fin.ext
  show 1024 * (n / 8) + p.val = 1024 * ((n + 1) / 8) + p.val
  omega

/-- What the two scratch buffers hold after point `t`, whatever case ran there. -/
theorem scratch_A (c : Dev nD) (t : Fin cfg0.N) (h0 : t.val % 8 = 0) :
    (outsAt0 m c t.val t.isLt).2.1 = k0_pay1 (iblk m c 0 t)
    ∧ (outsAt0 m c t.val t.isLt).2.2 = k0_pay2 (k0_pay1 (iblk m c 0 t)) (iblk m c 1 t) := by
  rw [outsAt0_A m c t h0]
  dsimp only
  exact ⟨scratchX_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t) (iblk m c 4 t),
    scratchXa_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t) (iblk m c 4 t)⟩

/-- THE INVARIANT: after point `n` the first scratch is the row tile `n / 8` of `x`, the second its projection. -/
theorem scratch_inv (c : Dev nD) : ∀ (n : ℕ) (h : n < cfg0.N),
    (∀ (p : Fin 1024) (k : Fin 4096), (outsAt0 m c n h).2.1 (ix2 p k) = xArr m c (ix2 (rowOf ⟨n, h⟩ p) k))
    ∧ (∀ (p : Fin 1024) (r : Fin 128), (outsAt0 m c n h).2.2 (ix2 p r)
        = ∑ k : Fin 4096, xArr m c (ix2 (rowOf ⟨n, h⟩ p) k) * aArr m c (ix2 r k))
  | n, h => by
    by_cases h0 : n % 8 = 0
    · obtain ⟨e1, e2⟩ := scratch_A m c ⟨n, h⟩ h0
      have hx : ∀ (p : Fin 1024) (k : Fin 4096), k0_pay1 (F := Ideal) (iblk m c 0 ⟨n, h⟩) (ix2 p k) = xArr m c (ix2 (rowOf ⟨n, h⟩ p) k) :=
        fun p k => (pay1_apply _ _).trans (xblk_apply m c ⟨n, h⟩ p k)
      refine ⟨fun p k => (congrFun e1 (ix2 p k)).trans (hx p k), fun p r => (congrFun e2 (ix2 p r)).trans ?_⟩
      refine (pay2_apply _ _ p r).trans (Finset.sum_congr rfl fun k _ => ?_)
      exact congrArg₂ (· * ·) (hx p k) (ablk_apply m c ⟨n, h⟩ r k)
    · match n, h, h0 with
      | 0, _, h0 => exact absurd (Nat.zero_mod 8) h0
      | n + 1, h, h0 =>
        obtain ⟨i1, i2⟩ := scratch_inv c n (Nat.lt_of_succ_lt h)
        constructor
        · intro p k
          rw [← rowOf_pred n h h0 p, ← i1 p k, outsAt0_B m c ⟨n + 1, h⟩ h0]
          rfl
        · intro p r
          rw [← rowOf_pred n h h0 p, ← i2 p r, outsAt0_B m c ⟨n + 1, h⟩ h0]
          rfl

/-- The tile stored at point `t` is the tile's arithmetic on what the two scratch buffers hold after the point
    (just written at a first column tile, carried over otherwise). -/
theorem tile_eq (c : Dev nD) (t : Fin cfg0.N) :
    (outsAt0 m c t.val t.isLt).1 = k0_pay3 (outsAt0 m c t.val t.isLt).2.1 (iblk m c 2 t) (outsAt0 m c t.val t.isLt).2.2
      (iblk m c 3 t) (iblk m c 4 t) := by
  by_cases h0 : t.val % 8 = 0
  · obtain ⟨e1, e2⟩ := scratch_A m c t h0
    rw [e1, e2, outsAt0_A m c t h0]
    dsimp only
    exact tile_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t) (iblk m c 4 t)
  · rw [outsAt0_B m c t h0]
    dsimp only
    unfold sout0_B_0 sout0_B_1
    exact tile_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t) (iblk m c 4 t) _ _

/-- THE TILE'S VALUE: entry (p, q) of the tile stored at point `t` is the result at row `1024·(t / 8) + p`, column
    `512·(t % 8) + q`. -/
theorem tile_value (c : Dev nD) (t : Fin cfg0.N) (p : Fin 1024) (q : Fin 512) :
    (outsAt0 m c t.val t.isLt).1 (ix2 p q) = wholeAt (xArg m c) (aArg m c) (bArg m c) (cArg m c) (biasArg m c) (rowOf t p) (colOf t q) := by
  obtain ⟨i1, i2⟩ := scratch_inv m c t.val t.isLt
  refine (congrFun (tile_eq m c t) (ix2 p q)).trans ?_
  refine (pay3_apply _ _ _ _ _ p q).trans ?_
  unfold wholeAt dense lowRank proj
  refine congrArg₂ (· + ·) (congrArg₂ (· + ·) (Finset.sum_congr rfl fun k _ => ?_) (Finset.sum_congr rfl fun r _ => ?_)) ?_
  · exact congrArg₂ (· * ·) ((i1 p k).trans (congrFun (xArr_eq m c) _)) ((cblk_apply m c t q k).trans (cArr_apply m c _))
  · exact congrArg₂ (· * ·)
      ((i2 p r).trans (Finset.sum_congr rfl fun k _ => congrArg₂ (· * ·) (congrFun (xArr_eq m c) _) (aArr_apply m c _)))
      ((bblk_apply m c t q r).trans (bArr_apply m c _))
  · exact (biasblk_apply m c t q).trans (biasArr_apply m c _)

/-- WHAT POINT `t` WRITES BACK is its block of the one result function of the arguments. -/
theorem flushed_eq (c : Dev nD) (t : Fin cfg0.N) :
    (dats m 0 c).flushed 5 t = ((cfg0.win 5).blk t).view.read (Elt Ideal) (wholeForm (xArg m c) (aArg m c) (bArg m c) (cArg m c) (biasArg m c)) := by
  rw [Value.flushed5]
  funext j
  obtain ⟨p, q, rfl⟩ : ∃ (p : Fin 1024) (q : Fin 512), j = ix2 p q := ⟨j 0, j 1, eq_ix2 j⟩
  show (outsAt0 m c t.val t.isLt).1 (ix2 p q) = wholeForm (xArg m c) (aArg m c) (bArg m c) (cArg m c) (biasArg m c) (((cfg0.win 5).blk t).view.emb (ix2 p q))
  rw [tile_value]
  unfold wholeForm
  congr 1
  · apply Fin.ext
    show 1024 * (t.val / 8) + p.val = win0_5.index t 0 * 1024 + 1 * p.val
    rw [(idx_facts t).2.2.2.2.2.1]; omega
  · apply Fin.ext
    show 512 * (t.val % 8) + q.val = win0_5.index t 1 * 512 + 1 * q.val
    rw [(idx_facts t).2.2.2.2.2.2]; omega

/-- An entry of the array lies in point `t`'s tile iff each coordinate lies in the tile's range on its axis. -/
theorem mem_tile (t : Fin cfg0.N) (i : S4096x4096.Idx) :
    i ∈ ((cfg0.win 5).blk t).view.set ↔ ∀ a : Fin 2, win0_5.index t a * S1024x512.size a ≤ (i a).val
      ∧ (i a).val < win0_5.index t a * S1024x512.size a + S1024x512.size a := by
  show i ∈ ((View.whole main_v4).slice (win0_5.rect t)).set ↔ _
  rw [View.set_slice_whole, Rect.mem_set_unit]
  exact Iff.rfl

/-- THE COVER: entry (r, c) lies in the tile of point `8·(r / 1024) + c / 512`. -/
theorem cover (i : S4096x4096.Idx) :
    ∃ t : Fin cfg0.N, (cfg0.win 5).flush t = true ∧ i ∈ ((cfg0.win 5).blk t).view.set := by
  have hi0 : (i 0).val < 4096 := (i 0).isLt
  have hi1 : (i 1).val < 4096 := (i 1).isLt
  have hN : cfg0.N = 32 := N_0
  let t : Fin cfg0.N := ⟨8 * ((i 0).val / 1024) + (i 1).val / 512, by rw [hN]; omega⟩
  have ht : t.val = 8 * ((i 0).val / 1024) + (i 1).val / 512 := rfl
  refine ⟨t, flush0_5 t, ?_⟩
  rw [mem_tile]
  have e0 := (idx_facts t).2.2.2.2.2.1
  have e1 := (idx_facts t).2.2.2.2.2.2
  intro a
  match a with
  | ⟨0, _⟩ => show win0_5.index t 0 * 1024 ≤ (i 0).val ∧ (i 0).val < win0_5.index t 0 * 1024 + 1024; omega
  | ⟨1, _⟩ => show win0_5.index t 1 * 512 ≤ (i 1).val ∧ (i 1).val < win0_5.index t 1 * 512 + 512; omega

/-- THE ARRAY after the run is the result function of the arguments. -/
theorem final (c : Dev nD) : (dats m 0 c).arrAt 5 cfg0.N = wholeForm (xArg m c) (aArg m c) (bArg m c) (cArg m c) (biasArg m c) :=
  (dats m 0 c).arrAt_eq_of_cover 5 (wholeForm (xArg m c) (aArg m c) (bArg m c) (cArg m c) (biasArg m c)) (fun t _ => flushed_eq m c t) cover

/-- THE RUN, READ: every weakly fair execution ends with the result array at the result function of the arguments as
    launched, the arguments unchanged. -/
theorem run : θ_run (defs (F := Ideal)) (onTc (τ := τ) (main (F := Ideal))) ⟨m, fun _ => 0, ρ⟩ fun r => ∀ c : Dev nD,
      r.2.mem ((c : Thread nD τ).loc main_v4)
        = wholeForm (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.HandValue

end
-- ==== Proof.RefPieces.lean ====
/-
  What each control case of the reference kernel's body leaves in its accumulator and in the result block, as pure
  functions of what it loaded: at the first stretch of a (row block, column block) run the accumulator is set to
  (projected block · up-projection blockᵀ + bias row) and the stretch's product `x_block·C_blockᵀ` is added; at every
  later stretch the product is added to what the accumulator held; at the last stretch the result block is stored
  from the accumulator.
-/
import proofs.«154618_g2000304429570272_pallasbulk_165_3_alg».proof.Proof.Gen.ReferenceIdeal.Frame
import Idealize.ShloMosaic.Lib.Pipeline.Value
import Idealize.ShloMosaic.Lib.Tactic

noncomputable section

namespace Cert.ReferenceIdeal.HandValue

open Cert.ReferenceIdeal Cert.ReferenceIdeal.Gen Idealize.ShloMosaic Idealize.ShloMosaic.TcCoe Idealize.SL.Sem
open Idealize.ShloMosaic.Pipeline (Dat)

open Idealize.ShloMosaic.Tactic

variable {F : FTy → Type} [FloatOps F]

/-- The zero offsets of a whole-block access. -/
theorem hz : (![0, 0] : Fin 2 → Nat) = fun _ => 0 := funext fun a => by fin_cases a <;> rfl

/-- At the first stretch the accumulator is reset to (low-rank product + bias row) and the stretch's product is added. -/
theorem sout_A (c : Dev nD) (i : grid0.Coords) (a3 : Memref sig .tc .vmem S512x512 .f32) (h3 : a3.IsWhole) (a4 : Memref sig .tc .vmem S512x512 .f32) (h4 : a4.IsWhole) (a5 : Memref sig .tc .vmem S512x128 .f32) (h5 : a5.IsWhole) (a6 : Memref sig .tc .vmem S512x128 .f32) (h6 : a6.IsWhole) (a7 : Memref sig .tc .vmem S1x512 .f32) (h7 : a7.IsWhole) (a8 : Memref sig .tc .vmem S512x512 .f32) (h8 : a8.IsWhole) (a9 : Memref sig .tc .vmem S512x512 .f32) (h9 : a9.IsWhole) (hc0 : cond0_0 i) (hc1 : ¬cond0_1 i) (x0 : Vec F S512x512 .f32) (x1 : Vec F S512x512 .f32) (x2 : Vec F S512x128 .f32) (x3 : Vec F S512x128 .f32) (x4 : Vec F S1x512 .f32) :
    sout0_A_0 c i a3 h3 a4 h4 a5 h5 a6 h6 a7 h7 a8 h8 a9 h9 hc0 hc1 x0 x1 x2 x3 x4 = k0_pay2 (k0_pay1 x2 x3 x4) x0 x1 := by
  unfold sout0_A_0
  rw [View.read_writes_eq_canon _ _ _ (scover0_A_0 c i a3 h3 a4 h4 a5 h5 a6 h6 a7 h7 a8 h8 a9 h9 hc0 hc1 x0 x1 x2 x3 x4)]
  unfold kernelRun0_A
  dsimp only
  sl_unfold_words
  rw [View.canon_cons_unit_zero (S := S512x512) hz]
  simp only [View.readAt_eq_ld, h3.read_unread, h4.read_unread, h5.read_unread, h6.read_unread, h7.read_unread, h8.read_unread, h9.read_unread,
    View.ld_unit_zero (S := S512x512) hz, View.ld_unit_zero (S := S512x128) hz, View.ld_unit_zero (S := S1x512) hz,
    View.readCov_unit_zero (S := S512x512) _ hz]

/-- At a middle stretch the stretch's product is added to what the accumulator held. -/
theorem sout_B (c : Dev nD) (i : grid0.Coords) (a3 : Memref sig .tc .vmem S512x512 .f32) (h3 : a3.IsWhole) (a4 : Memref sig .tc .vmem S512x512 .f32) (h4 : a4.IsWhole) (a5 : Memref sig .tc .vmem S512x128 .f32) (h5 : a5.IsWhole) (a6 : Memref sig .tc .vmem S512x128 .f32) (h6 : a6.IsWhole) (a7 : Memref sig .tc .vmem S1x512 .f32) (h7 : a7.IsWhole) (a8 : Memref sig .tc .vmem S512x512 .f32) (h8 : a8.IsWhole) (a9 : Memref sig .tc .vmem S512x512 .f32) (h9 : a9.IsWhole) (hc0 : ¬cond0_0 i) (hc1 : ¬cond0_1 i) (x0 : Vec F S512x512 .f32) (x1 : Vec F S512x512 .f32) (x2 : Vec F S512x128 .f32) (x3 : Vec F S512x128 .f32) (x4 : Vec F S1x512 .f32) (xs0 : Vec F S512x512 .f32) :
    sout0_B_0 c i a3 h3 a4 h4 a5 h5 a6 h6 a7 h7 a8 h8 a9 h9 hc0 hc1 x0 x1 x2 x3 x4 xs0 = k0_pay2 xs0 x0 x1 := by
  unfold sout0_B_0
  rw [View.read_writes_eq_canon _ _ _ (scover0_B_0 c i a3 h3 a4 h4 a5 h5 a6 h6 a7 h7 a8 h8 a9 h9 hc0 hc1 x0 x1 x2 x3 x4 xs0)]
  unfold kernelRun0_B
  dsimp only
  sl_unfold_words
  rw [View.canon_unit_zero hz]
  simp only [View.readAt_eq_ld, h3.read_unread, h4.read_unread, h5.read_unread, h6.read_unread, h7.read_unread, h8.read_unread, h9.read_unread,
    View.ld_unit_zero (S := S512x512) hz, View.ld_unit_zero (S := S512x128) hz, View.ld_unit_zero (S := S1x512) hz,
    View.readCov_unit_zero (S := S512x512) _ hz]

/-- At the last stretch likewise, -/
theorem sout_C (c : Dev nD) (i : grid0.Coords) (a3 : Memref sig .tc .vmem S512x512 .f32) (h3 : a3.IsWhole) (a4 : Memref sig .tc .vmem S512x512 .f32) (h4 : a4.IsWhole) (a5 : Memref sig .tc .vmem S512x128 .f32) (h5 : a5.IsWhole) (a6 : Memref sig .tc .vmem S512x128 .f32) (h6 : a6.IsWhole) (a7 : Memref sig .tc .vmem S1x512 .f32) (h7 : a7.IsWhole) (a8 : Memref sig .tc .vmem S512x512 .f32) (h8 : a8.IsWhole) (a9 : Memref sig .tc .vmem S512x512 .f32) (h9 : a9.IsWhole) (hc0 : ¬cond0_0 i) (hc1 : cond0_1 i) (x0 : Vec F S512x512 .f32) (x1 : Vec F S512x512 .f32) (x2 : Vec F S512x128 .f32) (x3 : Vec F S512x128 .f32) (x4 : Vec F S1x512 .f32) (xs0 : Vec F S512x512 .f32) :
    sout0_C_0 c i a3 h3 a4 h4 a5 h5 a6 h6 a7 h7 a8 h8 a9 h9 hc0 hc1 x0 x1 x2 x3 x4 xs0 = k0_pay2 xs0 x0 x1 := by
  unfold sout0_C_0
  rw [View.read_writes_eq_canon _ _ _ (scover0_C_0 c i a3 h3 a4 h4 a5 h5 a6 h6 a7 h7 a8 h8 a9 h9 hc0 hc1 x0 x1 x2 x3 x4 xs0)]
  unfold kernelRun0_C
  dsimp only
  sl_unfold_words
  rw [View.canon_unit_zero hz]
  simp only [View.readAt_eq_ld, h3.read_unread, h4.read_unread, h5.read_unread, h6.read_unread, h7.read_unread, h8.read_unread, h9.read_unread,
    View.ld_unit_zero (S := S512x512) hz, View.ld_unit_zero (S := S512x128) hz, View.ld_unit_zero (S := S1x512) hz,
    View.readCov_unit_zero (S := S512x512) _ hz]

/-- and the result block is stored from the accumulator just updated. -/
theorem out_C (c : Dev nD) (i : grid0.Coords) (a3 : Memref sig .tc .vmem S512x512 .f32) (h3 : a3.IsWhole) (a4 : Memref sig .tc .vmem S512x512 .f32) (h4 : a4.IsWhole) (a5 : Memref sig .tc .vmem S512x128 .f32) (h5 : a5.IsWhole) (a6 : Memref sig .tc .vmem S512x128 .f32) (h6 : a6.IsWhole) (a7 : Memref sig .tc .vmem S1x512 .f32) (h7 : a7.IsWhole) (a8 : Memref sig .tc .vmem S512x512 .f32) (h8 : a8.IsWhole) (a9 : Memref sig .tc .vmem S512x512 .f32) (h9 : a9.IsWhole) (hc0 : ¬cond0_0 i) (hc1 : cond0_1 i) (x0 : Vec F S512x512 .f32) (x1 : Vec F S512x512 .f32) (x2 : Vec F S512x128 .f32) (x3 : Vec F S512x128 .f32) (x4 : Vec F S1x512 .f32) (xs0 : Vec F S512x512 .f32) :
    out0_C_5 c i a3 h3 a4 h4 a5 h5 a6 h6 a7 h7 a8 h8 a9 h9 hc0 hc1 x0 x1 x2 x3 x4 xs0 = k0_pay2 xs0 x0 x1 := by
  unfold out0_C_5
  rw [View.read_writes_eq_canon _ _ _ (cover0_C_5 c i a3 h3 a4 h4 a5 h5 a6 h6 a7 h7 a8 h8 a9 h9 hc0 hc1 x0 x1 x2 x3 x4 xs0)]
  unfold kernelRun0_C
  dsimp only
  sl_unfold_words
  rw [View.canon_unit_zero hz]
  simp only [View.readAt_eq_ld, h3.read_unread, h4.read_unread, h5.read_unread, h6.read_unread, h7.read_unread, h8.read_unread, h9.read_unread,
    View.ld_unit_zero (S := S512x512) hz, View.ld_unit_zero (S := S512x128) hz, View.ld_unit_zero (S := S1x512) hz,
    View.readCov_unit_zero (S := S512x512) _ hz]

end Cert.ReferenceIdeal.HandValue

end
-- ==== Proof.RefPayload.lean ====
/-
  The reference body's two stored values read at one entry over the extended reals: the reset value is
  `Σ_ρ xa[p, ρ]·B[q, ρ] + bias[0, q]`, and one accumulation step adds `Σ_{kk<512} x[p, kk]·C[q, kk]` to the entry.
-/
import proofs.«154618_g2000304429570272_pallasbulk_165_3_alg».proof.Proof.Gen.ReferenceIdeal.Skeleton
import proofs.«154618_g2000304429570272_pallasbulk_165_3_alg».proof.Proof.LibMatmulNT
import Idealize.ShloMosaic.Lib.Pipeline.Value

noncomputable section

namespace Cert.ReferenceIdeal.HandValue

open Cert.ReferenceIdeal Cert.ReferenceIdeal.Gen Idealize.ShloMosaic Idealize.ShloMosaic.TcCoe Idealize.SL.Sem
open Idealize.ShloMosaic.Pipeline (Dat)

open Idealize.ShloMosaic.ValueIdx
open scoped BigOperators

/-- The reset value at an entry of the block: the low-rank product of the projected-activation block with the
    up-projection block (both contracted along their second axis), plus the bias row broadcast down the rows. -/
theorem pay1_apply (x2 x3 : S512x128.Idx → EReal) (x4 : S1x512.Idx → EReal) (p q : Fin 512) :
    k0_pay1 (F := Ideal) x2 x3 x4 (ix2 p q) = (∑ ρ : Fin 128, x2 (ix2 p ρ) * x3 (ix2 q ρ)) + x4 (ix2 (0 : Fin 1) q) := by
  have e1 : matmul (F := Ideal) (φ₁ := .f32) (φ₂ := .f32) dot_S512x128_S512x128_S512x512_1_1_0_0_n_n none x2 x3 (constant S512x512 .f32 0x00000000#32) (ix2 p q)
      = ∑ ρ : Fin 128, x2 (ix2 p ρ) * x3 (ix2 q ρ) :=
    MatmulNT.matmul_zero_apply (φ₁ := .f32) (φ₂ := .f32) dot_S512x128_S512x128_S512x512_1_1_0_0_n_n rfl rfl rfl rfl rfl rfl none x2 x3 p q
  have e2 : broadcastTo S512x512 x4 broadcasts_S1x512_S512x512 (ix2 p q) = x4 (ix2 (0 : Fin 1) q) :=
    broadcastTo_apply x4 _ (ix2 p q) (ix2 (0 : Fin 1) q) (fun a => match a with | ⟨0, _⟩ => rfl | ⟨1, _⟩ => rfl)
  unfold k0_pay1
  rw [shapeCast_self, shapeCast_self, shapeCast_self]
  exact (addf_apply _ _ _).trans (congrArg₂ (· + ·) e1 e2)

/-- One step of the accumulation at an entry of the block: what was there, plus the product of the two stretch blocks. -/
theorem pay2_apply (acc x0 x1 : S512x512.Idx → EReal) (p q : Fin 512) :
    k0_pay2 (F := Ideal) acc x0 x1 (ix2 p q) = acc (ix2 p q) + ∑ kk : Fin 512, x0 (ix2 p kk) * x1 (ix2 q kk) := by
  have e1 : matmul (F := Ideal) (φ₁ := .f32) (φ₂ := .f32) dot_S512x512_S512x512_S512x512_1_1_0_0_n_n none x0 x1 (constant S512x512 .f32 0x00000000#32) (ix2 p q)
      = ∑ kk : Fin 512, x0 (ix2 p kk) * x1 (ix2 q kk) :=
    MatmulNT.matmul_zero_apply (φ₁ := .f32) (φ₂ := .f32) dot_S512x512_S512x512_S512x512_1_1_0_0_n_n rfl rfl rfl rfl rfl rfl none x0 x1 p q
  unfold k0_pay2
  rw [shapeCast_self]
  exact (addf_apply _ _ _).trans (congrArg (acc (ix2 p q) + ·) e1)

end Cert.ReferenceIdeal.HandValue

end
-- ==== Proof.RefBlocks.lean ====
/-
  Where each window's block sits in its array on the 8 × 8 × 8 grid — point `t` is row block `t / 64`, column block
  `(t / 8) % 8`, stretch `t % 8` of the inner axis — and what the arrays hold when the region starts: the projected
  activations `xa[r, ρ] = Σₖ x[r, k]·A[ρ, k]` computed before the region, and the bias laid out as a one-row matrix.
-/
import proofs.«154618_g2000304429570272_pallasbulk_165_3_alg».proof.Proof.Gen.ReferenceIdeal.Frame
import proofs.«154618_g2000304429570272_pallasbulk_165_3_alg».proof.Proof.Spec
import proofs.«154618_g2000304429570272_pallasbulk_165_3_alg».proof.Proof.LibMatmulNT
import Idealize.ShloMosaic.Lib.Pipeline.Value
import Idealize.ShloMosaic.Lib.StableHlo.Run
import Idealize.ShloMosaic.Lib.Tactic

noncomputable section

namespace Cert.ReferenceIdeal.HandValue

open Cert.ReferenceIdeal Cert.ReferenceIdeal.Gen Idealize.ShloMosaic Idealize.ShloMosaic.TcCoe Idealize.SL.Sem
open Idealize.ShloMosaic.Pipeline (Dat)

open Idealize.ShloMosaic.ValueIdx Idealize.ShloMosaic.StableHlo
open Cert.LowRankDense (inner proj)
open scoped BigOperators

variable (m : (ℓ : Loc nD τ sig) → Buf (Elt Ideal) ℓ)

/-! ## The grid point's three block coordinates: row block, column block, stretch -/

theorem N512 : cfg0.N = 512 := N_0

/-- The row block of grid point `n`: `n / 64` (below 8 on the grid; reduced modulo 8 so that it is defined for every natural). -/
def ri (n : ℕ) : Fin 8 := ⟨n / 64 % 8, Nat.mod_lt _ (by decide)⟩
/-- The column block of grid point `n`: `(n / 8) % 8`. -/
def cj (n : ℕ) : Fin 8 := ⟨n / 8 % 8, Nat.mod_lt _ (by decide)⟩
/-- The stretch of the inner axis at grid point `n`: `n % 8`. -/
def sk (n : ℕ) : Fin 8 := ⟨n % 8, Nat.mod_lt _ (by decide)⟩

@[simp] theorem ri_val (n : ℕ) : (ri n).val = n / 64 % 8 := rfl
@[simp] theorem cj_val (n : ℕ) : (cj n).val = n / 8 % 8 := rfl
@[simp] theorem sk_val (n : ℕ) : (sk n).val = n % 8 := rfl

/-- The windows' block indices at every point of the grid: row-major in (row block, column block, stretch). -/
theorem idx_x : ∀ t : Fin cfg0.N, win0_0.index t (0 : Fin 2) = t.val / 64 ∧ win0_0.index t (1 : Fin 2) = t.val % 8 :=
  (by decide +kernel : ∀ t : Fin grid0.N, win0_0.index t (0 : Fin 2) = t.val / 64 ∧ win0_0.index t (1 : Fin 2) = t.val % 8)
theorem idx_c : ∀ t : Fin cfg0.N, win0_1.index t (0 : Fin 2) = t.val / 8 % 8 ∧ win0_1.index t (1 : Fin 2) = t.val % 8 :=
  (by decide +kernel : ∀ t : Fin grid0.N, win0_1.index t (0 : Fin 2) = t.val / 8 % 8 ∧ win0_1.index t (1 : Fin 2) = t.val % 8)
theorem idx_p : ∀ t : Fin cfg0.N, win0_2.index t (0 : Fin 2) = t.val / 64 ∧ win0_2.index t (1 : Fin 2) = 0 :=
  (by decide +kernel : ∀ t : Fin grid0.N, win0_2.index t (0 : Fin 2) = t.val / 64 ∧ win0_2.index t (1 : Fin 2) = 0)
theorem idx_u : ∀ t : Fin cfg0.N, win0_3.index t (0 : Fin 2) = t.val / 8 % 8 ∧ win0_3.index t (1 : Fin 2) = 0 :=
  (by decide +kernel : ∀ t : Fin grid0.N, win0_3.index t (0 : Fin 2) = t.val / 8 % 8 ∧ win0_3.index t (1 : Fin 2) = 0)
theorem idx_b : ∀ t : Fin cfg0.N, win0_4.index t (0 : Fin 2) = 0 ∧ win0_4.index t (1 : Fin 2) = t.val / 8 % 8 :=
  (by decide +kernel : ∀ t : Fin grid0.N, win0_4.index t (0 : Fin 2) = 0 ∧ win0_4.index t (1 : Fin 2) = t.val / 8 % 8)
theorem idx_o : ∀ t : Fin cfg0.N, win0_5.index t (0 : Fin 2) = t.val / 64 ∧ win0_5.index t (1 : Fin 2) = t.val / 8 % 8 :=
  (by decide +kernel : ∀ t : Fin grid0.N, win0_5.index t (0 : Fin 2) = t.val / 64 ∧ win0_5.index t (1 : Fin 2) = t.val / 8 % 8)

/-! ## The arguments, and the two arrays the host computes before the region -/

abbrev argX (c : Dev nD) : S4096x4096.Idx → EReal := m ((c : Thread nD τ).loc main_arg0)
abbrev argA (c : Dev nD) : S128x4096.Idx → EReal := m ((c : Thread nD τ).loc main_arg1)
abbrev argB (c : Dev nD) : S4096x128.Idx → EReal := m ((c : Thread nD τ).loc main_arg2)
abbrev argC (c : Dev nD) : S4096x4096.Idx → EReal := m ((c : Thread nD τ).loc main_arg3)
abbrev argBias (c : Dev nD) : S4096.Idx → EReal := m ((c : Thread nD τ).loc main_arg4)

/-- The region finds the projected activations in the first host result: `x` contracted with `A` along their second axes. -/
theorem V_v0 (c : Dev nD) : (V m c main_v0 : S4096x128.Idx → EReal)
    = Host.dotGeneral (F := Ideal) (φ₁ := .f32) (φ₂ := .f32) dot_S4096x4096_S128x4096_S4096x128_1_1_0_0_n_n (some .fp32) (argX m c) (argA m c) := by
  dsimp only [Gen.V, Gen.hostOps0]; after_results

/-- and the bias as a one-row matrix in the second. -/
theorem V_v1 (c : Dev nD) : (V m c main_v1 : S1x4096.Idx → EReal) = shapeCast S1x4096 (argBias m c) shapeCasts_S4096_S1x4096 := by
  dsimp only [Gen.V, Gen.hostOps0]; after_results; rfl

/-- The projected activations at an entry. -/
theorem V_v0_apply (c : Dev nD) (r : Fin 4096) (ρ : Fin 128) :
    (V m c main_v0 : S4096x128.Idx → EReal) (ix2 r ρ) = proj (argX m c) (argA m c) (ix2 r ρ) := by
  rw [V_v0]
  exact MatmulNT.dotGeneral_apply (φ₁ := .f32) (φ₂ := .f32) dot_S4096x4096_S128x4096_S4096x128_1_1_0_0_n_n rfl rfl rfl rfl rfl rfl (some .fp32) .single (argX m c) (argA m c) r ρ

/-- The one-row bias at an entry. -/
theorem V_v1_apply (c : Dev nD) (q : Fin 4096) :
    (V m c main_v1 : S1x4096.Idx → EReal) (ix2 (0 : Fin 1) q) = argBias m c (ix1 q) := by
  rw [V_v1]
  exact shapeCast_apply (argBias m c) shapeCasts_S4096_S1x4096 (ix2 (0 : Fin 1) q) (ix1 q) (by
    rw [Shape.rowMajor_val_two, Shape.rowMajor_val_one]; show q.val = 0 * 4096 + q.val; omega)

/-! ## Each input block, read where its window says -/

/-- The `x` block at point `t`: rows of row block `t / 64`, inner positions of stretch `t % 8`. -/
theorem xblk_apply (c : Dev nD) (t : Fin cfg0.N) (p kk : Fin 512) :
    (iblk m c 0 t : S512x512.Idx → EReal) (ix2 p kk) = argX m c (ix2 (inner (ri t.val) p) (inner (sk t.val) kk)) := by
  obtain ⟨e0, e1⟩ := idx_x t
  show (V m c main_arg0 : S4096x4096.Idx → EReal) (((cfg0.win 0).blk t).view.emb (ix2 p kk)) = _
  rw [V_main_arg0 m c]
  refine congrArg _ (funext fun a => Fin.ext ?_)
  match a with
  | ⟨0, _⟩ => show win0_0.index t (0 : Fin 2) * 512 + 1 * p.val = 512 * (t.val / 64 % 8) + p.val; rw [e0]; have := lt_of_lt_of_eq t.isLt N512; omega
  | ⟨1, _⟩ => show win0_0.index t (1 : Fin 2) * 512 + 1 * kk.val = 512 * (t.val % 8) + kk.val; rw [e1]; omega

/-- The dense weight's block at point `t`: rows of column block `(t / 8) % 8`, inner positions of stretch `t % 8`. -/
theorem cblk_apply (c : Dev nD) (t : Fin cfg0.N) (q kk : Fin 512) :
    (iblk m c 1 t : S512x512.Idx → EReal) (ix2 q kk) = argC m c (ix2 (inner (cj t.val) q) (inner (sk t.val) kk)) := by
  obtain ⟨e0, e1⟩ := idx_c t
  show (V m c main_arg3 : S4096x4096.Idx → EReal) (((cfg0.win 1).blk t).view.emb (ix2 q kk)) = _
  rw [V_main_arg3 m c]
  refine congrArg _ (funext fun a => Fin.ext ?_)
  match a with
  | ⟨0, _⟩ => show win0_1.index t (0 : Fin 2) * 512 + 1 * q.val = 512 * (t.val / 8 % 8) + q.val; rw [e0]; omega
  | ⟨1, _⟩ => show win0_1.index t (1 : Fin 2) * 512 + 1 * kk.val = 512 * (t.val % 8) + kk.val; rw [e1]; omega

/-- The projected activations' block at point `t`: rows of row block `t / 64`, every rank position. -/
theorem pblk_apply (c : Dev nD) (t : Fin cfg0.N) (p : Fin 512) (ρ : Fin 128) :
    (iblk m c 2 t : S512x128.Idx → EReal) (ix2 p ρ) = proj (argX m c) (argA m c) (ix2 (inner (ri t.val) p) ρ) := by
  obtain ⟨e0, e1⟩ := idx_p t
  rw [← V_v0_apply m c]
  show (V m c main_v0 : S4096x128.Idx → EReal) (((cfg0.win 2).blk t).view.emb (ix2 p ρ)) = _
  refine congrArg _ (funext fun a => Fin.ext ?_)
  match a with
  | ⟨0, _⟩ => show win0_2.index t (0 : Fin 2) * 512 + 1 * p.val = 512 * (t.val / 64 % 8) + p.val; rw [e0]; have := lt_of_lt_of_eq t.isLt N512; omega
  | ⟨1, _⟩ => show win0_2.index t (1 : Fin 2) * 128 + 1 * ρ.val = ρ.val; rw [e1]; omega

/-- The up-projection's block at point `t`: rows of column block `(t / 8) % 8`, every rank position. -/
theorem ublk_apply (c : Dev nD) (t : Fin cfg0.N) (q : Fin 512) (ρ : Fin 128) :
    (iblk m c 3 t : S512x128.Idx → EReal) (ix2 q ρ) = argB m c (ix2 (inner (cj t.val) q) ρ) := by
  obtain ⟨e0, e1⟩ := idx_u t
  show (V m c main_arg2 : S4096x128.Idx → EReal) (((cfg0.win 3).blk t).view.emb (ix2 q ρ)) = _
  rw [V_main_arg2 m c]
  refine congrArg _ (funext fun a => Fin.ext ?_)
  match a with
  | ⟨0, _⟩ => show win0_3.index t (0 : Fin 2) * 512 + 1 * q.val = 512 * (t.val / 8 % 8) + q.val; rw [e0]; omega
  | ⟨1, _⟩ => show win0_3.index t (1 : Fin 2) * 128 + 1 * ρ.val = ρ.val; rw [e1]; omega

/-- The bias row's block at point `t`: the entries of column block `(t / 8) % 8`. -/
theorem bblk_apply (c : Dev nD) (t : Fin cfg0.N) (q : Fin 512) :
    (iblk m c 4 t : S1x512.Idx → EReal) (ix2 (0 : Fin 1) q) = argBias m c (ix1 (inner (cj t.val) q)) := by
  obtain ⟨e0, e1⟩ := idx_b t
  rw [← V_v1_apply m c]
  show (V m c main_v1 : S1x4096.Idx → EReal) (((cfg0.win 4).blk t).view.emb (ix2 (0 : Fin 1) q)) = _
  refine congrArg _ (funext fun a => Fin.ext ?_)
  match a with
  | ⟨0, _⟩ => show win0_4.index t (0 : Fin 2) * 1 + 1 * 0 = 0; rw [e0]
  | ⟨1, _⟩ => show win0_4.index t (1 : Fin 2) * 512 + 1 * q.val = 512 * (t.val / 8 % 8) + q.val; rw [e1]; omega

end Cert.ReferenceIdeal.HandValue

end
-- ==== Proof.RefAcc.lean ====
/-
  The accumulator over a run of eight consecutive grid points (one row block and column block, the stretches
  0 … 7 of the inner axis in order): after the point of stretch `s` it holds, entry by entry, (low-rank term + bias)
  plus the stretches 0 … s of the dense term — the fold of the run, unrolled as a sum over a range.
-/
import proofs.«154618_g2000304429570272_pallasbulk_165_3_alg».proof.Proof.Gen.ReferenceIdeal.Value
import proofs.«154618_g2000304429570272_pallasbulk_165_3_alg».proof.Proof.RefPieces
import proofs.«154618_g2000304429570272_pallasbulk_165_3_alg».proof.Proof.RefPayload
import proofs.«154618_g2000304429570272_pallasbulk_165_3_alg».proof.Proof.RefBlocks

noncomputable section

namespace Cert.ReferenceIdeal.HandValue

open Cert.ReferenceIdeal Cert.ReferenceIdeal.Gen Idealize.ShloMosaic Idealize.ShloMosaic.TcCoe Idealize.SL.Sem
open Idealize.ShloMosaic.Pipeline (Dat)

open Idealize.ShloMosaic.ValueIdx
open Cert.LowRankDense (inner proj lowRank denseStretch)
open Cert.ReferenceIdeal.Value (scAt0_0 soutsAt0_0_eq)
open scoped BigOperators

variable (m : (ℓ : Loc nD τ sig) → Buf (Elt Ideal) ℓ)

/-! ## The input blocks at a point, as matrices over the extended reals -/

abbrev xblk (c : Dev nD) (t : Fin cfg0.N) : S512x512.Idx → EReal := iblk m c 0 t
abbrev cblk (c : Dev nD) (t : Fin cfg0.N) : S512x512.Idx → EReal := iblk m c 1 t
abbrev pblk (c : Dev nD) (t : Fin cfg0.N) : S512x128.Idx → EReal := iblk m c 2 t
abbrev ublk (c : Dev nD) (t : Fin cfg0.N) : S512x128.Idx → EReal := iblk m c 3 t
abbrev bblk (c : Dev nD) (t : Fin cfg0.N) : S1x512.Idx → EReal := iblk m c 4 t

/-! ## One point's effect on the accumulator -/

/-- At the first stretch of a run the accumulator is reset: (low-rank product + bias row), plus the stretch's product. -/
theorem scAt_reset (c : Dev nD) (n : ℕ) (h : n < cfg0.N) (h0 : n % 8 = 0) (acc : S512x512.Idx → EReal) :
    scAt0_0 m c n h acc = k0_pay2 (F := Ideal) (k0_pay1 (F := Ideal) (pblk m c ⟨n, h⟩) (ublk m c ⟨n, h⟩) (bblk m c ⟨n, h⟩)) (xblk m c ⟨n, h⟩) (cblk m c ⟨n, h⟩) := by
  have h7 : ¬n % 8 = 7 := by omega
  unfold scAt0_0
  rw [dif_pos h0, dif_neg h7]
  exact sout_A (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) scM0_0 (Memref.isWhole_whole _) ((hcond0_0 ⟨n, h⟩).mpr h0) (fun h' => h7 ((hcond0_1 ⟨n, h⟩).mp h')) (iblk m c 0 ⟨n, h⟩) (iblk m c 1 ⟨n, h⟩) (iblk m c 2 ⟨n, h⟩) (iblk m c 3 ⟨n, h⟩) (iblk m c 4 ⟨n, h⟩)

/-- At every later stretch the stretch's product is added to what the accumulator held. -/
theorem scAt_step (c : Dev nD) (n : ℕ) (h : n < cfg0.N) (h0 : ¬n % 8 = 0) (acc : S512x512.Idx → EReal) :
    scAt0_0 m c n h acc = k0_pay2 (F := Ideal) acc (xblk m c ⟨n, h⟩) (cblk m c ⟨n, h⟩) := by
  unfold scAt0_0
  rw [dif_neg h0]
  by_cases h7 : n % 8 = 7
  · rw [dif_pos h7]
    exact sout_C (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) scM0_0 (Memref.isWhole_whole _) (fun h' => h0 ((hcond0_0 ⟨n, h⟩).mp h')) ((hcond0_1 ⟨n, h⟩).mpr h7) (iblk m c 0 ⟨n, h⟩) (iblk m c 1 ⟨n, h⟩) (iblk m c 2 ⟨n, h⟩) (iblk m c 3 ⟨n, h⟩) (iblk m c 4 ⟨n, h⟩) acc
  · rw [dif_neg h7]
    exact sout_B (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) scM0_0 (Memref.isWhole_whole _) (fun h' => h0 ((hcond0_0 ⟨n, h⟩).mp h')) (fun h' => h7 ((hcond0_1 ⟨n, h⟩).mp h')) (iblk m c 0 ⟨n, h⟩) (iblk m c 1 ⟨n, h⟩) (iblk m c 2 ⟨n, h⟩) (iblk m c 3 ⟨n, h⟩) (iblk m c 4 ⟨n, h⟩) acc

/-! ## The same in the arguments' own terms -/

/-- What grid point `n` adds at entry (p, q) of its block: its stretch of the dense term at the block's row and column. -/
def addendAt (c : Dev nD) (n : ℕ) (p q : Fin 512) : EReal :=
  denseStretch (argX m c) (argC m c) (inner (ri n) p) (inner (cj n) q) (sk n)

/-- What a run starting at grid point `b` resets entry (p, q) of its block to: low-rank term plus bias. -/
def resetAt (c : Dev nD) (b : ℕ) (p q : Fin 512) : EReal :=
  lowRank (proj (argX m c) (argA m c)) (argB m c) (inner (ri b) p) (inner (cj b) q) + argBias m c (ix1 (inner (cj b) q))

/-- The same two as functions of the block index. -/
def addend (c : Dev nD) (n : ℕ) (i : S512x512.Idx) : EReal := addendAt m c n (i 0) (i 1)
def resetVal (c : Dev nD) (b : ℕ) (i : S512x512.Idx) : EReal := resetAt m c b (i 0) (i 1)

/-- The product of the two stretch blocks at a point is that point's stretch of the dense term. -/
theorem stretch_apply (c : Dev nD) (n : ℕ) (h : n < cfg0.N) (p q : Fin 512) :
    ∑ kk : Fin 512, xblk m c ⟨n, h⟩ (ix2 p kk) * cblk m c ⟨n, h⟩ (ix2 q kk) = addendAt m c n p q :=
  Finset.sum_congr rfl fun kk _ => congrArg₂ (fun (a b : EReal) => a * b) (xblk_apply m c ⟨n, h⟩ p kk) (cblk_apply m c ⟨n, h⟩ q kk)

/-- The reset value at a point is the low-rank term plus the bias at the block's row and column. -/
theorem reset_apply (c : Dev nD) (n : ℕ) (h : n < cfg0.N) (p q : Fin 512) :
    k0_pay1 (F := Ideal) (pblk m c ⟨n, h⟩) (ublk m c ⟨n, h⟩) (bblk m c ⟨n, h⟩) (ix2 p q) = resetAt m c n p q :=
  (pay1_apply (pblk m c ⟨n, h⟩) (ublk m c ⟨n, h⟩) (bblk m c ⟨n, h⟩) p q).trans
    (congrArg₂ (fun (a b : EReal) => a + b)
      (Finset.sum_congr rfl fun ρ _ => congrArg₂ (fun (a b : EReal) => a * b) (pblk_apply m c ⟨n, h⟩ p ρ) (ublk_apply m c ⟨n, h⟩ q ρ))
      (bblk_apply m c ⟨n, h⟩ q))

/-! ## The accumulator after any point: reset value plus the stretches added so far -/

/-- After point `t` the accumulator holds, at every entry, the reset value of `t`'s run plus the addends of the run's
    points up to `t`. -/
theorem scratch_apply (c : Dev nD) (t : Fin cfg0.N) (i : S512x512.Idx) :
    ((outsAt0 m c t.val t.isLt).2 : S512x512.Idx → EReal) i
      = resetVal m c (8 * (t.val / 8)) i + ∑ s ∈ Finset.range (t.val % 8 + 1), addend m c (8 * (t.val / 8) + s) i := by
  have hN := lt_of_lt_of_eq t.isLt N512
  rw [soutsAt0_0_eq m c t]
  refine Pipeline.accAt_add_apply (ι := S512x512.Idx) (β := EReal) _ _ (resetVal m c (8 * (t.val / 8))) (addend m c) (8 * (t.val / 8)) 7 ?_ ?_ (t.val % 8) (by omega) _ i
  · intro h j
    obtain ⟨p, q, rfl⟩ : ∃ (p q : Fin 512), j = ix2 p q := ⟨j 0, j 1, eq_ix2 j⟩
    rw [scAt_reset m c _ h (by omega)]
    refine (pay2_apply _ (xblk m c ⟨_, h⟩) (cblk m c ⟨_, h⟩) p q).trans ?_
    exact congrArg₂ (fun (a b : EReal) => a + b) (reset_apply m c _ h p q) (stretch_apply m c _ h p q)
  · intro n h acc j hb he
    obtain ⟨p, q, rfl⟩ : ∃ (p q : Fin 512), j = ix2 p q := ⟨j 0, j 1, eq_ix2 j⟩
    rw [scAt_step m c n h (by omega)]
    refine (pay2_apply acc (xblk m c ⟨n, h⟩) (cblk m c ⟨n, h⟩) p q).trans ?_
    exact congrArg (fun (a : EReal) => acc (ix2 p q) + a) (stretch_apply m c n h p q)

end Cert.ReferenceIdeal.HandValue

end
-- ==== Proof.RefFinal.lean ====
/-
  The result array of the reference: only the last point of each run writes its block back, and there the block is
  the accumulator, i.e. (low-rank term + bias) plus all eight stretches of the dense term at the block's rows and
  columns; the 64 blocks cover the array, so it ends at that one function of the arguments.
-/
import proofs.«154618_g2000304429570272_pallasbulk_165_3_alg».proof.Proof.RefAcc

noncomputable section

namespace Cert.ReferenceIdeal.HandValue

open Cert.ReferenceIdeal Cert.ReferenceIdeal.Gen Idealize.ShloMosaic Idealize.ShloMosaic.TcCoe Idealize.SL.Sem
open Idealize.ShloMosaic.Pipeline (Dat)

open Idealize.ShloMosaic.ValueIdx
open Cert.LowRankDense (inner proj lowRank denseStretch stretchAt stretchForm)
open scoped BigOperators

variable (m : (ℓ : Loc nD τ sig) → Buf (Elt Ideal) ℓ)

/-- The result array the run must end at: (low-rank term + bias) plus the eight stretches of the dense term. -/
abbrev target (c : Dev nD) : S4096x4096.Idx → EReal :=
  stretchForm (argX m c) (argA m c) (argB m c) (argC m c) (argBias m c)

/-! ## Block coordinates along a run of eight points -/

/-- The run's first point has the row and column block of every point of the run. -/
theorem coords_head (t : ℕ) : ri (8 * (t / 8)) = ri t ∧ cj (8 * (t / 8)) = cj t := by
  refine ⟨Fin.ext ?_, Fin.ext ?_⟩ <;> simp only [ri_val, cj_val] <;> omega

/-- The run's point number `s` has the run's row and column block, and stretch `s`. -/
theorem coords_run (t : ℕ) (s : Fin 8) :
    ri (8 * (t / 8) + s.val) = ri t ∧ cj (8 * (t / 8) + s.val) = cj t ∧ sk (8 * (t / 8) + s.val) = s := by
  have hs := s.isLt
  refine ⟨Fin.ext ?_, Fin.ext ?_, Fin.ext ?_⟩ <;> simp only [ri_val, cj_val, sk_val] <;> omega

/-! ## What a flushing point writes back -/

/-- At the last stretch of a run the result block is stored from the accumulator just updated: they hold the same. -/
theorem out_eq_scratch (c : Dev nD) (t : Fin cfg0.N) (h0 : ¬t.val % 8 = 0) (h7 : t.val % 8 = 7) :
    (outsAt0 m c t.val t.isLt).1 = (outsAt0 m c t.val t.isLt).2 := by
  rw [outsAt0_C m c t h0 h7]
  dsimp only
  exact (out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h' => h0 ((hcond0_0 t).mp h')) ((hcond0_1 t).mpr h7) (iblk m c 0 t) (iblk m c 1 t) (iblk m c 2 t) (iblk m c 3 t) (iblk m c 4 t) (outsAt0 m c (t.val - 1) (Nat.lt_of_le_of_lt (Nat.sub_le _ _) t.isLt)).2).trans
    (sout_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h' => h0 ((hcond0_0 t).mp h')) ((hcond0_1 t).mpr h7) (iblk m c 0 t) (iblk m c 1 t) (iblk m c 2 t) (iblk m c 3 t) (iblk m c 4 t) (outsAt0 m c (t.val - 1) (Nat.lt_of_le_of_lt (Nat.sub_le _ _) t.isLt)).2).symm

/-- The accumulator after the last point of a run, at an entry: the result at the block's row and column. -/
theorem scratch_last (c : Dev nD) (t : Fin cfg0.N) (h7 : t.val % 8 = 7) (p q : Fin 512) :
    ((outsAt0 m c t.val t.isLt).2 : S512x512.Idx → EReal) (ix2 p q)
      = stretchAt (argX m c) (argA m c) (argB m c) (argC m c) (argBias m c) (inner (ri t.val) p) (inner (cj t.val) q) := by
  rw [scratch_apply m c t (ix2 p q), h7, Finset.sum_range]
  obtain ⟨eh0, eh1⟩ := coords_head t.val
  unfold stretchAt
  refine congrArg₂ (fun (a b : EReal) => a + b) ?_ (Finset.sum_congr rfl fun s _ => ?_)
  · show resetAt m c (8 * (t.val / 8)) p q = _
    unfold resetAt
    rw [eh0, eh1]
  · obtain ⟨e0, e1, e2⟩ := coords_run t.val s
    show addendAt m c (8 * (t.val / 8) + s.val) p q = _
    unfold addendAt
    rw [e0, e1, e2]

/-- The row and column of an entry of the result block of point `t`. -/
theorem oblk_emb (t : Fin cfg0.N) (p q : Fin 512) :
    ((cfg0.win 5).blk t).view.emb (ix2 p q) = (ix2 (inner (ri t.val) p) (inner (cj t.val) q) : S4096x4096.Idx) := by
  obtain ⟨e0, e1⟩ := idx_o t
  have hN := lt_of_lt_of_eq t.isLt N512
  refine funext fun a => Fin.ext ?_
  match a with
  | ⟨0, _⟩ => show win0_5.index t (0 : Fin 2) * 512 + 1 * p.val = 512 * (t.val / 64 % 8) + p.val; rw [e0]; omega
  | ⟨1, _⟩ => show win0_5.index t (1 : Fin 2) * 512 + 1 * q.val = 512 * (t.val / 8 % 8) + q.val; rw [e1]; omega

/-- WHAT A FLUSHING POINT WRITES BACK is its block of the result. -/
theorem flushed_eq (c : Dev nD) (t : Fin cfg0.N) (hf : (cfg0.win 5).flush t = true) :
    (dats m 0 c).flushed 5 t = ((cfg0.win 5).blk t).view.read (Elt Ideal) (target m c) := by
  have h7 : t.val % 8 = 7 := (flush0_5 t).mp hf
  have h0 : ¬t.val % 8 = 0 := by omega
  rw [Value.flushed5, out_eq_scratch m c t h0 h7]
  funext j
  obtain ⟨p, q, rfl⟩ : ∃ (p q : Fin 512), j = ix2 p q := ⟨j 0, j 1, @eq_ix2 512 512 j⟩
  show ((outsAt0 m c t.val t.isLt).2 : S512x512.Idx → EReal) (ix2 p q) = target m c (((cfg0.win 5).blk t).view.emb (ix2 p q))
  rw [oblk_emb t p q, scratch_last m c t h7 p q]
  rfl

/-! ## The blocks of the flushing points cover the array -/

/-- An index of the array is in point `t`'s block iff each coordinate is in the block's range on its axis. -/
theorem mem_oblk (t : Fin cfg0.N) (i : S4096x4096.Idx) :
    i ∈ ((cfg0.win 5).blk t).view.set ↔ ∀ a : Fin 2, win0_5.index t a * S512x512.size a ≤ (i a).val ∧ (i a).val < win0_5.index t a * S512x512.size a + S512x512.size a := by
  show i ∈ ((View.whole main_v2).slice (win0_5.rect t)).set ↔ _
  rw [View.set_slice_whole, Rect.mem_set_unit]
  exact Iff.rfl

/-- Entry (r, c) lies in the block of the last point of the run of row block r / 512 and column block c / 512. -/
theorem cover (i : S4096x4096.Idx) : ∃ t : Fin cfg0.N, (cfg0.win 5).flush t = true ∧ i ∈ ((cfg0.win 5).blk t).view.set := by
  have h0 : (i 0).val < 4096 := (i 0).isLt
  have h1 : (i 1).val < 4096 := (i 1).isLt
  obtain ⟨n, hn⟩ : ∃ n : ℕ, n = 64 * ((i 0).val / 512) + 8 * ((i 1).val / 512) + 7 := ⟨_, rfl⟩
  have hlt : n < cfg0.N := by rw [N512]; omega
  obtain ⟨e0, e1⟩ := idx_o ⟨n, hlt⟩
  refine ⟨⟨n, hlt⟩, (flush0_5 ⟨n, hlt⟩).mpr (by show n % 8 = 7; omega), ?_⟩
  rw [mem_oblk]
  intro a
  match a with
  | ⟨0, _⟩ =>
    show win0_5.index ⟨n, hlt⟩ (0 : Fin 2) * 512 ≤ (i 0).val ∧ (i 0).val < win0_5.index ⟨n, hlt⟩ (0 : Fin 2) * 512 + 512
    rw [e0]; show n / 64 * 512 ≤ (i 0).val ∧ (i 0).val < n / 64 * 512 + 512; omega
  | ⟨1, _⟩ =>
    show win0_5.index ⟨n, hlt⟩ (1 : Fin 2) * 512 ≤ (i 1).val ∧ (i 1).val < win0_5.index ⟨n, hlt⟩ (1 : Fin 2) * 512 + 512
    rw [e1]; show n / 8 % 8 * 512 ≤ (i 1).val ∧ (i 1).val < n / 8 % 8 * 512 + 512; omega

/-- So the result array ends holding the result. -/
theorem final (c : Dev nD) : (dats m 0 c).arrAt 5 cfg0.N = target m c :=
  (dats m 0 c).arrAt_eq_of_cover 5 (target m c) (flushed_eq m c) cover

end Cert.ReferenceIdeal.HandValue

end
-- ==== Proof.RefValue.lean ====
/-
  The reference's run, read: its result array is (low-rank term + bias) plus the eight stretches of the dense term,
  as one function of the five arguments; the arguments end unchanged.
-/
import proofs.«154618_g2000304429570272_pallasbulk_165_3_alg».proof.Defs
import proofs.«154618_g2000304429570272_pallasbulk_165_3_alg».proof.Proof.Gen.ReferenceIdeal.Value
import proofs.«154618_g2000304429570272_pallasbulk_165_3_alg».proof.Proof.Spec
import proofs.«154618_g2000304429570272_pallasbulk_165_3_alg».proof.Proof.RefFinal

noncomputable section

namespace Cert.ReferenceIdeal.HandValue

open Cert.ReferenceIdeal Cert.ReferenceIdeal.Gen Idealize.ShloMosaic Idealize.ShloMosaic.TcCoe Idealize.SL.Sem

/-- The run, read: the result array ends at (low-rank term + bias) plus the eight stretches of the dense term, as one
    function of the arguments' launch contents; the five arguments are unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v2)
        = Cert.LowRankDense.stretchForm (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.ReferenceIdeal.HandValue

end
-- ==== Proof.lean ====
/- A dense layer with a low-rank correction, `y = x·Cᵀ + (x·Aᵀ)·Bᵀ + bias` over f32[4096, 4096], computed by two
   tiled kernels that group the same sums differently.

   The kernel under proof walks a 4 × 8 grid of (row tile, column tile). At the first column tile of a row tile it
   keeps the row tile of `x` and its projection `xa = x_tile·Aᵀ` in two scratch buffers; at every column tile it
   stores `x_tile·C_tileᵀ + xa·B_tileᵀ + bias_tile`, each product over its whole inner axis at once. The reference
   computes `xa = x·Aᵀ` before its kernel and walks an 8 × 8 × 8 grid whose innermost axis splits the inner axis of
   `x·Cᵀ` into eight stretches of 512: an accumulator starts at `xa_tile·B_tileᵀ + bias_tile`, gains one stretch of the
   dense product per step, and is written out after the last.

   Read over the extended reals — every float operation exact, a change of float format the identity, a matrix
   product into the zero matrix a plain sum of products — both result arrays are one function of the five
   arguments: the kernel's is `(dense + low-rank) + bias` with the inner axis contracted whole, the reference's
   `(low-rank + bias) + Σ_{s<8} stretch s`. A sum over 4096 positions is the sum over the eight stretches of the sums
   inside them, and addition of extended reals is commutative and associative; nothing else is used, in particular
   no finiteness of the inputs. The idealization rewrote no operation of the kernel, so it is the kernel's own
   text read over the extended reals. The three programs' termination, safety and unchanged arguments are the
   generated frame theorems. -/
import proofs.«154618_g2000304429570272_pallasbulk_165_3_alg».proof.Defs
import proofs.«154618_g2000304429570272_pallasbulk_165_3_alg».proof.Proof.Gen.Kernel
import proofs.«154618_g2000304429570272_pallasbulk_165_3_alg».proof.Proof.Gen.Kernel.Skeleton
import proofs.«154618_g2000304429570272_pallasbulk_165_3_alg».proof.Proof.Gen.Kernel.Launch
import proofs.«154618_g2000304429570272_pallasbulk_165_3_alg».proof.Proof.Gen.Kernel.Points
import proofs.«154618_g2000304429570272_pallasbulk_165_3_alg».proof.Proof.Gen.Kernel.Frame
import proofs.«154618_g2000304429570272_pallasbulk_165_3_alg».proof.Proof.Gen.KernelIdeal
import proofs.«154618_g2000304429570272_pallasbulk_165_3_alg».proof.Proof.Gen.KernelIdeal.Skeleton
import proofs.«154618_g2000304429570272_pallasbulk_165_3_alg».proof.Proof.Gen.KernelIdeal.Launch
import proofs.«154618_g2000304429570272_pallasbulk_165_3_alg».proof.Proof.Gen.KernelIdeal.Points
import proofs.«154618_g2000304429570272_pallasbulk_165_3_alg».proof.Proof.Gen.KernelIdeal.Frame
import proofs.«154618_g2000304429570272_pallasbulk_165_3_alg».proof.Proof.Gen.ReferenceIdeal
import proofs.«154618_g2000304429570272_pallasbulk_165_3_alg».proof.Proof.Gen.ReferenceIdeal.Skeleton
import proofs.«154618_g2000304429570272_pallasbulk_165_3_alg».proof.Proof.Gen.ReferenceIdeal.Launch
import proofs.«154618_g2000304429570272_pallasbulk_165_3_alg».proof.Proof.Gen.ReferenceIdeal.Points
import proofs.«154618_g2000304429570272_pallasbulk_165_3_alg».proof.Proof.Gen.ReferenceIdeal.Frame
import proofs.«154618_g2000304429570272_pallasbulk_165_3_alg».proof.Proof.Gen.Pre_finite_inputs
import proofs.«154618_g2000304429570272_pallasbulk_165_3_alg».proof.Proof.Spec
import proofs.«154618_g2000304429570272_pallasbulk_165_3_alg».proof.Proof.KernelValue
import proofs.«154618_g2000304429570272_pallasbulk_165_3_alg».proof.Proof.RefValue
import Idealize.ShloMosaic.Adequacy
import Idealize.ShloMosaic.Init

noncomputable section

namespace Cert.Proof

open Idealize.ShloMosaic Idealize.SL.Sem

/-- The word-level kernel terminates, faults nowhere and leaves its arguments as launched. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference. -/
theorem frame_referenceIdeal : Cert.frame_ReferenceIdeal := fun m ρ _ => Cert.ReferenceIdeal.Gen.frame m ρ

/-- The idealization rewrote nothing. -/
theorem preserves : Cert.preserves_Kernel_KernelIdeal := trivial

/-- From memories agreeing on the arguments the kernel's result array ends at `(dense + low-rank) + bias` and the
    reference's at `(low-rank + bias) + the eight stretches` of the same arguments: one function. -/
theorem algebraic : Cert.algebraic_KernelIdeal_ReferenceIdeal := by
  intro m ρ m' ρ' _ hagree
  refine ⟨_, Cert.KernelIdeal.HandValue.run m ρ, ?_⟩
  refine (θ_run Cert.ReferenceIdeal.defs _ _).mono (fun _ h c => ⟨(h c).1.trans ?_, (h c).2⟩)
    (Cert.ReferenceIdeal.HandValue.run m' ρ')
  rw [(hagree c).1, (hagree c).2.1, (hagree c).2.2.1, (hagree c).2.2.2.1, (hagree c).2.2.2.2]
  exact Cert.LowRankDense.stretchForm_eq_wholeForm _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
